-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x40 : Shape := ⟨2, ![8, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x40 : S_.BroadcastsInDim S8x40 (![] : Fin 0 → Fin S8x40.rank)
  reducesTo_S8x40_S_d0_1 : S8x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S8x40 1) : IVec S_ 1 :=
  let main_c_5 : IVec S_ 1 := constantI S_ 1 1#1
  let main_v17 : IVec S_ 1 := (fun x v => Host.reduce IntOp.andi x v reducesTo_S8x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x8 .f32) (main_arg3 : FVec F S8 .f32) (main_arg4 : FVec F S8x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x8 .f32 := Host.absf main_arg2
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x40 .f32 := Host.absf main_arg4
  let main_cst_4 : FVec F S_ .f32 := constant S_ .f32 0x7F800000#32
  let main_v15 : FVec F S8x40 .f32 := broadcastInDim S8x40 ![] bcast_S_S8x40 main_cst_4
  let main_v16 : IVec S8x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x40 : Shape := ⟨2, ![8, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S4000x512 : Shape := ⟨2, ![4000, 512]⟩
abbrev S4000x8 : Shape := ⟨2, ![4000, 8]⟩
abbrev S3300000x8 : Shape := ⟨2, ![3300000, 8]⟩
abbrev S1x8 : Shape := ⟨2, ![1, 8]⟩
abbrev S5000x8 : Shape := ⟨2, ![5000, 8]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 87
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x8, .f32⟩
  | .hbm, ⟨3, _⟩ => ⟨S8, .f32⟩
  | .hbm, ⟨4, _⟩ => ⟨S8x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S3300000x1, .f32⟩
  | .hbm, ⟨50, _⟩ => ⟨S100000x8, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x8, .f32⟩
  | .hbm, ⟨60, _⟩ => ⟨S3300000x8, .f32⟩
  | .hbm, ⟨61, _⟩ => ⟨S3300000x8, .f32⟩
  | .hbm, ⟨62, _⟩ => ⟨S_, .f32⟩
  | .hbm, ⟨63, _⟩ => ⟨S100000x8, .f32⟩
  | .hbm, ⟨64, _⟩ => ⟨S3300000x1, .i32⟩
  | .hbm, ⟨65, _⟩ => ⟨S100000x8, .f32⟩
  | .hbm, ⟨66, _⟩ => ⟨S1x8, .f32⟩
  | .hbm, ⟨67, _⟩ => ⟨S100000x8, .f32⟩
  | .hbm, ⟨68, _⟩ => ⟨S100000x40, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x40, .f32⟩
  | .hbm, ⟨78, _⟩ => ⟨S3300000x40, .f32⟩
  | .hbm, ⟨79, _⟩ => ⟨S3300000x40, .f32⟩
  | .hbm, ⟨80, _⟩ => ⟨S_, .f32⟩
  | .hbm, ⟨81, _⟩ => ⟨S100000x40, .f32⟩
  | .hbm, ⟨82, _⟩ => ⟨S3300000x1, .i32⟩
  | .hbm, ⟨83, _⟩ => ⟨S100000x40, .f32⟩
  | .hbm, ⟨84, _⟩ => ⟨S1x40, .f32⟩
  | .hbm, ⟨85, _⟩ => ⟨S100000x40, .f32⟩
  | .hbm, ⟨86, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x8, .f32⟩
  | .local _ .vmem, ⟨3, _⟩ => ⟨S4000x8, .f32⟩
  | .local _ .vmem, ⟨4, _⟩ => ⟨S4000x8, .f32⟩
  | .local _ .vmem, ⟨5, _⟩ => ⟨S5000x8, .f32⟩
  | .local _ .vmem, ⟨6, _⟩ => ⟨S5000x8, .f32⟩
  | .local _ .vmem, ⟨7, _⟩ => ⟨S1x8, .f32⟩
  | .local _ .vmem, ⟨8, _⟩ => ⟨S5000x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S8x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  inb_S4000x8_S4000x8_0_0 : ∀ a, (![0, 0] : Fin 2 → Nat) a + S4000x8.size a ≤ S4000x8.size a
  h_S4000x8 : 0 < S4000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x40_S8x40_0_0 : ∀ a, (![0, 0] : Fin 2 → Nat) a + S8x40.size a ≤ S8x40.size a
  h_S8x40 : 0 < S8x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x8_S4000x8_1_0_0_1_n_n_wf : DotDims.WF S4000x512 S512x8 S4000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S5000x8_S8x40_S5000x40_1_0_0_1_n_n_wf : DotDims.WF S5000x8 S8x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x8.size a ≤ S100000x8.size a
  hwx0_2 : ∀ i : grid0.Coords, EltTy.bits .f32 = 32 ∨ (Rect.block (s := S100000x8) S4000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S100000x8.size a
  hwx1_0 : ∀ i : grid1.Coords, EltTy.bits .f32 = 32 ∨ (Rect.block (s := S100000x8) S5000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S100000x8.size a
  hwx1_2 : ∀ i : grid1.Coords, EltTy.bits .f32 = 32 ∨ (Rect.block (s := S100000x8) S5000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x40.size a ≤ S8x40.size a
  hwx2_1 : ∀ i : grid2.Coords, EltTy.bits .f32 = 32 ∨ (Rect.block (s := S8x40) S8x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x8_S4000x8_1_0_0_1_n_n : DotDims S4000x512 S512x8 S4000x8 where
  lhsContracting := [1]
  rhsContracting := [0]
  lhsNonContracting := [0]
  rhsNonContracting := [1]
  lhsBatch := []
  rhsBatch := []
  wf := dot_S4000x512_S512x8_S4000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S5000x8_S8x40_S5000x40_1_0_0_1_n_n : DotDims S5000x8 S8x40 S5000x40 where
  lhsContracting := [1]
  rhsContracting := [0]
  lhsNonContracting := [0]
  rhsNonContracting := [1]
  lhsBatch := []
  rhsBatch := []
  wf := dot_S5000x8_S8x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S8x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62_0) S5000x40.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62_1) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x8 : Shape := ⟨2, ![512, 8]⟩
abbrev S8 : Shape := ⟨1, ![8]⟩
abbrev S8x40 : Shape := ⟨2, ![8, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S3300000x8 : Shape := ⟨2, ![3300000, 8]⟩
abbrev S1x8 : Shape := ⟨2, ![1, 8]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 146
  | .vmem => 0
  | .smem => 0
  | _ => 0

abbrev hbmTy0_0 (i : Nat) : BufTy := match i % 128 with
  | 0 => ⟨S100000x512, .f32⟩
  | 1 => ⟨S2x3200000, .i32⟩
  | 2 => ⟨S512x8, .f32⟩
  | 3 => ⟨S8, .f32⟩
  | 4 => ⟨S8x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x8, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x8, .f32⟩
  | 59 => ⟨S3300000x1, .f32⟩
  | 60 => ⟨S3300000x8, .f32⟩
  | 61 => ⟨S3300000x8, .f32⟩
  | 62 => ⟨S_, .f32⟩
  | 63 => ⟨S100000x8, .f32⟩
  | 64 => ⟨S3300000x1, .i32⟩
  | 65 => ⟨S100000x8, .f32⟩
  | 66 => ⟨S1x8, .f32⟩
  | 67 => ⟨S100000x8, .f32⟩
  | 68 => ⟨S100000x8, .f32⟩
  | 69 => ⟨S_, .f32⟩
  | 70 => ⟨S100000x8, .f32⟩
  | 71 => ⟨S100000x8, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S100000x40, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x40, .f32⟩
  | 121 => ⟨S3300000x1, .f32⟩
  | 122 => ⟨S3300000x40, .f32⟩
  | 123 => ⟨S3300000x40, .f32⟩
  | 124 => ⟨S_, .f32⟩
  | 125 => ⟨S100000x40, .f32⟩
  | 126 => ⟨S3300000x1, .i32⟩
  | 127 => ⟨S100000x40, .f32⟩
  | _ => ⟨S100000x512, .f32⟩

abbrev hbmTy0_1 (i : Nat) : BufTy := match i % 128 with
  | 0 => ⟨S1x40, .f32⟩
  | 1 => ⟨S100000x40, .f32⟩
  | 2 => ⟨S100000x40, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x40, .f32⟩
  | 10 => ⟨S100000x40, .f32⟩
  | 11 => ⟨S100000x40, .f32⟩
  | 12 => ⟨S_, .f32⟩
  | 13 => ⟨S100000, .f32⟩
  | 14 => ⟨S100000x1, .f32⟩
  | 15 => ⟨S100000x1, .f32⟩
  | 16 => ⟨S100000x40, .f32⟩
  | 17 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v95 : Ref sig .tc := ⟨.hbm, 145, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x8_S100000x8_1_0_0_1_n_n_wf : DotDims.WF S100000x512 S512x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x40_S100000x40_1_0_0_1_n_n_wf : DotDims.WF S100000x8 S8x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x8_S100000x8_1_0_0_1_n_n : DotDims S100000x512 S512x8 S100000x8 where
  lhsContracting := [1]
  rhsContracting := [0]
  lhsNonContracting := [0]
  rhsNonContracting := [1]
  lhsBatch := []
  rhsBatch := []
  wf := dot_S100000x512_S512x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x40_S100000x40_1_0_0_1_n_n : DotDims S100000x8 S8x40 S100000x40 where
  lhsContracting := [1]
  rhsContracting := [0]
  lhsNonContracting := [0]
  rhsNonContracting := [1]
  lhsBatch := []
  rhsBatch := []
  wf := dot_S100000x8_S8x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RefRunHand.lean ====
/-
  The reference program's run, read back chunk by chunk.
  @main of the reference is a straight line of 140 host operations. The line is cut into eight chunks (a cut before each
  pair of concatenations, and between the two layers' normalisation and dense parts); each chunk's effect on the buffers
  that later chunks read is stated over an ARBITRARY entry valuation, from hypotheses naming what the chunk reads,
  as the stage of the program that computes that buffer; the chunks are then chained from the launch memory. Every
  weakly fair execution terminates with the two results at their stages of the arguments, and the arguments unchanged.
-/
import proofs.«109300_j36249523978477_1_alg».proof.Proof.RefRead
import Idealize.ShloMosaic.Lib.StableHlo.Run

set_option maxRecDepth 8192

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The operations, in eight chunks -/

/-- Operations 0 … 4 of @main. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0) ]
theorem opsA_sub : (opsA : List (HloOp τ sig (Elt F))).Forall fun op => op.bufs ⊆ tcRefs τ sig :=
  ⟨unary_bufs_sub .., reshape_bufs_sub .., unary_bufs_sub .., reshape_bufs_sub .., nullary_bufs_sub ..⟩
theorem opsA_fresh : (opsA : List (HloOp τ sig (Elt F))).Forall fun op => op.fresh = ∅ := by
  simp only [List.Forall]; repeat' constructor

/-- Operations 5 … 6 of @main. -/
abbrev opsB0 : List (HloOp τ sig (Elt F)) :=
  [ binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]
theorem opsB0_sub : (opsB0 : List (HloOp τ sig (Elt F))).Forall fun op => op.bufs ⊆ tcRefs τ sig :=
  ⟨binary_bufs_sub .., binary_bufs_sub ..⟩
theorem opsB0_fresh : (opsB0 : List (HloOp τ sig (Elt F))).Forall fun op => op.fresh = ∅ := by
  simp only [List.Forall]; repeat' constructor

/-- Operations 7 … 42 of @main. -/
abbrev opsB : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v5 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v5 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v5 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]
theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsB_fresh : (opsB : List (HloOp τ sig (Elt F))).Forall fun op => op.fresh = ∅ := by
  simp only [List.Forall]; repeat' constructor

/-- Operations 43 … 66 of @main. -/
abbrev opsC : List (HloOp τ sig (Elt F)) :=
  [ binary main_arg0 main_arg2 main_v32 ((fun l r => Host.dotGeneral dot_S100000x512_S512x8_S100000x8_1_0_0_1_n_n none l r) : (⟨S100000x512, .f32⟩ : BufTy).Contents (Elt F) → (⟨S512x8, .f32⟩ : BufTy).Contents (Elt F) → (⟨S100000x8, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v5 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v5 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v5 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x8 ![0, 1] bcast_S3300000x1_S3300000x8_0_1 : (⟨S3300000x1, .f32⟩ : BufTy).Contents (Elt F) → (⟨S3300000x8, .f32⟩ : BufTy).Contents (Elt F)),
    binary main_v39 main_v41 main_v42 (mulf : (⟨S3300000x8, .f32⟩ : BufTy).Contents (Elt F) → (⟨S3300000x8, .f32⟩ : BufTy).Contents (Elt F) → (⟨S3300000x8, .f32⟩ : BufTy).Contents (Elt F)),
    nullary main_cst_9 (constant S_ .f32 0x00000000#32),
    unary main_cst_9 main_v43 (broadcastInDim S100000x8 ![] bcast_S_S100000x8 : (⟨S_, .f32⟩ : BufTy).Contents (Elt F) → (⟨S100000x8, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg3 main_v46 (broadcastInDim S1x8 ![1] bcast_S8_S1x8_1 : (⟨S8, .f32⟩ : BufTy).Contents (Elt F) → (⟨S1x8, .f32⟩ : BufTy).Contents (Elt F)),
    unary main_v46 main_v47 (broadcastInDim S100000x8 ![0, 1] bcast_S1x8_S100000x8_0_1 : (⟨S1x8, .f32⟩ : BufTy).Contents (Elt F) → (⟨S100000x8, .f32⟩ : BufTy).Contents (Elt F)),
    binary main_v45 main_v47 main_v48 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x8, .f32⟩) main_call1_v0) (broadcastInDim S100000x8 ![] bcast_S_S100000x8),
    TRef.binary (TRef.of (T := ⟨S100000x8, .f32⟩) main_v48) (TRef.of (T := ⟨S100000x8, .f32⟩) main_call1_v0) (TRef.of (T := ⟨S100000x8, .f32⟩) main_v49) maximumf,
    nullary main_v50 (iotaInDim S100000 32 0) ]
theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub ..⟩
theorem opsC_fresh : (opsC : List (HloOp τ sig (Elt F))).Forall fun op => op.fresh = ∅ := by
  simp only [List.Forall]; repeat' constructor

/-- Operations 67 … 68 of @main. -/
abbrev opsD0 : List (HloOp τ sig (Elt F)) :=
  [ binary main_v1 main_v50 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v50 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]
theorem opsD0_sub : (opsD0 : List (HloOp τ sig (Elt F))).Forall fun op => op.bufs ⊆ tcRefs τ sig :=
  ⟨binary_bufs_sub .., binary_bufs_sub ..⟩
theorem opsD0_fresh : (opsD0 : List (HloOp τ sig (Elt F))).Forall fun op => op.fresh = ∅ := by
  simp only [List.Forall]; repeat' constructor

/-- Operations 69 … 104 of @main. -/
abbrev opsD : List (HloOp τ sig (Elt F)) :=
  [ nullary main_cst_10 (constant S_ .f32 0x3F800000#32),
    unary main_cst_10 main_v53 (broadcastInDim S3300000 ![] bcast_S_S3300000 : (⟨S_, .f32⟩ : BufTy).Contents (Elt F) → (⟨S3300000, .f32⟩ : BufTy).Contents (Elt F)),
    nullary main_cst_11 (constant S_ .f32 0x00000000#32),
    unary main_cst_11 main_v54 (broadcastInDim S100000 ![] bcast_S_S100000 : (⟨S_, .f32⟩ : BufTy).Contents (Elt F) → (⟨S100000, .f32⟩ : BufTy).Contents (Elt F)),
    unary main_v52 main_v55 (broadcastInDim S3300000x1 ![0] bcast_S3300000_S3300000x1_0 : (⟨S3300000, .i32⟩ : BufTy).Contents (Elt F) → (⟨S3300000x1, .i32⟩ : BufTy).Contents (Elt F)),
    ternary main_v54 main_v55 main_v53 main_v56 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_12 (constant S_ .f32 0x00000000#32),
    unary main_cst_12 main_v57 (broadcastInDim S100000 ![] bcast_S_S100000 : (⟨S_, .f32⟩ : BufTy).Contents (Elt F) → (⟨S100000, .f32⟩ : BufTy).Contents (Elt F)),
    binary main_v56 main_v57 main_v58 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x2B8CBCCC#32),
    unary main_cst_13 main_v59 (broadcastInDim S100000 ![] bcast_S_S100000 : (⟨S_, .f32⟩ : BufTy).Contents (Elt F) → (⟨S100000, .f32⟩ : BufTy).Contents (Elt F)),
    binary main_v56 main_v59 main_v60 (maximumf : (⟨S100000, .f32⟩ : BufTy).Contents (Elt F) → (⟨S100000, .f32⟩ : BufTy).Contents (Elt F) → (⟨S100000, .f32⟩ : BufTy).Contents (Elt F)),
    unary main_v60 main_v61 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v58) (TRef.of (T := ⟨S100000, .f32⟩) main_v61) (TRef.of (T := ⟨S100000, .f32⟩) main_call2_v1) (TRef.of (T := ⟨S100000, .f32⟩) main_v62) select,
    nullary main_c_15 (constantI S_ 32 0#32),
    unary main_c_15 main_v63 (broadcastInDim S3300000 ![] bcast_S_S3300000 : (⟨S_, .i32⟩ : BufTy).Contents (Elt F) → (⟨S3300000, .i32⟩ : BufTy).Contents (Elt F)),
    binary main_v51 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v65 (broadcastInDim S3300000 ![] bcast_S_S3300000 : (⟨S_, .i32⟩ : BufTy).Contents (Elt F) → (⟨S3300000, .i32⟩ : BufTy).Contents (Elt F)),
    binary main_v51 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v51 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_17 (constantI S_ 32 0#32),
    unary main_c_17 main_v70 (broadcastInDim S3300000 ![] bcast_S_S3300000 : (⟨S_, .i32⟩ : BufTy).Contents (Elt F) → (⟨S3300000, .i32⟩ : BufTy).Contents (Elt F)),
    binary main_v52 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v72 (broadcastInDim S3300000 ![] bcast_S_S3300000 : (⟨S_, .i32⟩ : BufTy).Contents (Elt F) → (⟨S3300000, .i32⟩ : BufTy).Contents (Elt F)),
    binary main_v52 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v52 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v62 main_v75 main_v76 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v76 main_v77 (mulf : (⟨S3300000, .f32⟩ : BufTy).Contents (Elt F) → (⟨S3300000, .f32⟩ : BufTy).Contents (Elt F) → (⟨S3300000, .f32⟩ : BufTy).Contents (Elt F)) ]
theorem opsD_sub : (opsD : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsD_fresh : (opsD : List (HloOp τ sig (Elt F))).Forall fun op => op.fresh = ∅ := by
  simp only [List.Forall]; repeat' constructor

/-- Operations 105 … 124 of @main. -/
abbrev opsE : List (HloOp τ sig (Elt F)) :=
  [ binary main_v49 main_arg4 main_v78 ((fun l r => Host.dotGeneral dot_S100000x8_S8x40_S100000x40_1_0_0_1_n_n none l r) : (⟨S100000x8, .f32⟩ : BufTy).Contents (Elt F) → (⟨S8x40, .f32⟩ : BufTy).Contents (Elt F) → (⟨S100000x40, .f32⟩ : BufTy).Contents (Elt F)),
    nullary main_c_19 (constantI S_ 32 0#32),
    unary main_c_19 main_v79 (broadcastInDim S3300000 ![] bcast_S_S3300000 : (⟨S_, .i32⟩ : BufTy).Contents (Elt F) → (⟨S3300000, .i32⟩ : BufTy).Contents (Elt F)),
    binary main_v51 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v81 (broadcastInDim S3300000 ![] bcast_S_S3300000 : (⟨S_, .i32⟩ : BufTy).Contents (Elt F) → (⟨S3300000, .i32⟩ : BufTy).Contents (Elt F)),
    binary main_v51 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v51 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v78 main_v84 main_v85 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v77 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x40 ![0, 1] bcast_S3300000x1_S3300000x40_0_1 : (⟨S3300000x1, .f32⟩ : BufTy).Contents (Elt F) → (⟨S3300000x40, .f32⟩ : BufTy).Contents (Elt F)),
    binary main_v85 main_v87 main_v88 (mulf : (⟨S3300000x40, .f32⟩ : BufTy).Contents (Elt F) → (⟨S3300000x40, .f32⟩ : BufTy).Contents (Elt F) → (⟨S3300000x40, .f32⟩ : BufTy).Contents (Elt F)),
    nullary main_cst_21 (constant S_ .f32 0x00000000#32),
    unary main_cst_21 main_v89 (broadcastInDim S100000x40 ![] bcast_S_S100000x40 : (⟨S_, .f32⟩ : BufTy).Contents (Elt F) → (⟨S100000x40, .f32⟩ : BufTy).Contents (Elt F)),
    unary main_v52 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)) ]
theorem opsE_sub : (opsE : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsE_fresh : (opsE : List (HloOp τ sig (Elt F))).Forall fun op => op.fresh = ∅ := by
  simp only [List.Forall]; repeat' constructor

/-- Operations 125 … 139 of @main. -/
abbrev opsG : List (HloOp τ sig (Elt F)) :=
  [ TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]
theorem opsG_sub : (opsG : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsG_fresh : (opsG : List (HloOp τ sig (Elt F))).Forall fun op => op.fresh = ∅ := by
  simp only [List.Forall]; repeat' constructor

/-- @main's 140 operations, in order: the chunks joined. -/
abbrev ops : List (HloOp τ sig (Elt F)) := opsA ++ (opsB0 ++ (opsB ++ (opsC ++ (opsD0 ++ (opsD ++ (opsE ++ (opsG)))))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append opsA_sub (forall_append opsB0_sub (forall_append opsB_sub (forall_append opsC_sub (forall_append opsD0_sub (forall_append opsD_sub (forall_append opsE_sub (opsG_sub)))))))

theorem ops_fresh : ∀ op ∈ (ops : List (HloOp τ sig (Elt F))), op.fresh = ∅ :=
  List.forall_iff_forall_mem.mp (forall_append opsA_fresh (forall_append opsB0_fresh (forall_append opsB_fresh (forall_append opsC_fresh (forall_append opsD0_fresh (forall_append opsD_fresh (forall_append opsE_fresh (opsG_fresh))))))))

/-- The buffers after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (V : Valuation τ sig (Elt F)) : after ops V = (after opsG (after opsE (after opsD (after opsD0 (after opsC (after opsB (after opsB0 (after opsA V)))))))) := by
  simp only [ops, after_append]

/-! ## What each chunk leaves unwritten -/

theorem A_keep_arg0 (Wv : Valuation τ sig (Elt F)) :
    after opsA Wv (Proc.devRef .tc main_arg0) = Wv (Proc.devRef .tc main_arg0) := by
  after_results_simp
theorem A_keep_arg1 (Wv : Valuation τ sig (Elt F)) :
    after opsA Wv (Proc.devRef .tc main_arg1) = Wv (Proc.devRef .tc main_arg1) := by
  after_results_simp
theorem A_keep_arg2 (Wv : Valuation τ sig (Elt F)) :
    after opsA Wv (Proc.devRef .tc main_arg2) = Wv (Proc.devRef .tc main_arg2) := by
  after_results_simp
theorem A_keep_arg3 (Wv : Valuation τ sig (Elt F)) :
    after opsA Wv (Proc.devRef .tc main_arg3) = Wv (Proc.devRef .tc main_arg3) := by
  after_results_simp
theorem A_keep_arg4 (Wv : Valuation τ sig (Elt F)) :
    after opsA Wv (Proc.devRef .tc main_arg4) = Wv (Proc.devRef .tc main_arg4) := by
  after_results_simp
theorem A_keep_arg5 (Wv : Valuation τ sig (Elt F)) :
    after opsA Wv (Proc.devRef .tc main_arg5) = Wv (Proc.devRef .tc main_arg5) := by
  after_results_simp
theorem B0_keep_v1 (Wv : Valuation τ sig (Elt F)) :
    after opsB0 Wv (Proc.devRef .tc main_v1) = Wv (Proc.devRef .tc main_v1) := by
  after_results_simp
theorem B0_keep_v3 (Wv : Valuation τ sig (Elt F)) :
    after opsB0 Wv (Proc.devRef .tc main_v3) = Wv (Proc.devRef .tc main_v3) := by
  after_results_simp
theorem B0_keep_arg0 (Wv : Valuation τ sig (Elt F)) :
    after opsB0 Wv (Proc.devRef .tc main_arg0) = Wv (Proc.devRef .tc main_arg0) := by
  after_results_simp
theorem B0_keep_arg1 (Wv : Valuation τ sig (Elt F)) :
    after opsB0 Wv (Proc.devRef .tc main_arg1) = Wv (Proc.devRef .tc main_arg1) := by
  after_results_simp
theorem B0_keep_arg2 (Wv : Valuation τ sig (Elt F)) :
    after opsB0 Wv (Proc.devRef .tc main_arg2) = Wv (Proc.devRef .tc main_arg2) := by
  after_results_simp
theorem B0_keep_arg3 (Wv : Valuation τ sig (Elt F)) :
    after opsB0 Wv (Proc.devRef .tc main_arg3) = Wv (Proc.devRef .tc main_arg3) := by
  after_results_simp
theorem B0_keep_arg4 (Wv : Valuation τ sig (Elt F)) :
    after opsB0 Wv (Proc.devRef .tc main_arg4) = Wv (Proc.devRef .tc main_arg4) := by
  after_results_simp
theorem B0_keep_arg5 (Wv : Valuation τ sig (Elt F)) :
    after opsB0 Wv (Proc.devRef .tc main_arg5) = Wv (Proc.devRef .tc main_arg5) := by
  after_results_simp
theorem B_keep_v5 (Wv : Valuation τ sig (Elt F)) :
    after opsB Wv (Proc.devRef .tc main_v5) = Wv (Proc.devRef .tc main_v5) := by
  after_results_simp
theorem B_keep_v6 (Wv : Valuation τ sig (Elt F)) :
    after opsB Wv (Proc.devRef .tc main_v6) = Wv (Proc.devRef .tc main_v6) := by
  after_results_simp
theorem B_keep_v1 (Wv : Valuation τ sig (Elt F)) :
    after opsB Wv (Proc.devRef .tc main_v1) = Wv (Proc.devRef .tc main_v1) := by
  after_results_simp
theorem B_keep_v3 (Wv : Valuation τ sig (Elt F)) :
    after opsB Wv (Proc.devRef .tc main_v3) = Wv (Proc.devRef .tc main_v3) := by
  after_results_simp
theorem B_keep_arg0 (Wv : Valuation τ sig (Elt F)) :
    after opsB Wv (Proc.devRef .tc main_arg0) = Wv (Proc.devRef .tc main_arg0) := by
  after_results_simp
theorem B_keep_arg1 (Wv : Valuation τ sig (Elt F)) :
    after opsB Wv (Proc.devRef .tc main_arg1) = Wv (Proc.devRef .tc main_arg1) := by
  after_results_simp
theorem B_keep_arg2 (Wv : Valuation τ sig (Elt F)) :
    after opsB Wv (Proc.devRef .tc main_arg2) = Wv (Proc.devRef .tc main_arg2) := by
  after_results_simp
theorem B_keep_arg3 (Wv : Valuation τ sig (Elt F)) :
    after opsB Wv (Proc.devRef .tc main_arg3) = Wv (Proc.devRef .tc main_arg3) := by
  after_results_simp
theorem B_keep_arg4 (Wv : Valuation τ sig (Elt F)) :
    after opsB Wv (Proc.devRef .tc main_arg4) = Wv (Proc.devRef .tc main_arg4) := by
  after_results_simp
theorem B_keep_arg5 (Wv : Valuation τ sig (Elt F)) :
    after opsB Wv (Proc.devRef .tc main_arg5) = Wv (Proc.devRef .tc main_arg5) := by
  after_results_simp
theorem C_keep_v1 (Wv : Valuation τ sig (Elt F)) :
    after opsC Wv (Proc.devRef .tc main_v1) = Wv (Proc.devRef .tc main_v1) := by
  after_results_simp
theorem C_keep_v3 (Wv : Valuation τ sig (Elt F)) :
    after opsC Wv (Proc.devRef .tc main_v3) = Wv (Proc.devRef .tc main_v3) := by
  after_results_simp
theorem C_keep_arg0 (Wv : Valuation τ sig (Elt F)) :
    after opsC Wv (Proc.devRef .tc main_arg0) = Wv (Proc.devRef .tc main_arg0) := by
  after_results_simp
theorem C_keep_arg1 (Wv : Valuation τ sig (Elt F)) :
    after opsC Wv (Proc.devRef .tc main_arg1) = Wv (Proc.devRef .tc main_arg1) := by
  after_results_simp
theorem C_keep_arg2 (Wv : Valuation τ sig (Elt F)) :
    after opsC Wv (Proc.devRef .tc main_arg2) = Wv (Proc.devRef .tc main_arg2) := by
  after_results_simp
theorem C_keep_arg3 (Wv : Valuation τ sig (Elt F)) :
    after opsC Wv (Proc.devRef .tc main_arg3) = Wv (Proc.devRef .tc main_arg3) := by
  after_results_simp
theorem C_keep_arg4 (Wv : Valuation τ sig (Elt F)) :
    after opsC Wv (Proc.devRef .tc main_arg4) = Wv (Proc.devRef .tc main_arg4) := by
  after_results_simp
theorem C_keep_arg5 (Wv : Valuation τ sig (Elt F)) :
    after opsC Wv (Proc.devRef .tc main_arg5) = Wv (Proc.devRef .tc main_arg5) := by
  after_results_simp
theorem D0_keep_v49 (Wv : Valuation τ sig (Elt F)) :
    after opsD0 Wv (Proc.devRef .tc main_v49) = Wv (Proc.devRef .tc main_v49) := by
  after_results_simp
theorem D0_keep_arg0 (Wv : Valuation τ sig (Elt F)) :
    after opsD0 Wv (Proc.devRef .tc main_arg0) = Wv (Proc.devRef .tc main_arg0) := by
  after_results_simp
theorem D0_keep_arg1 (Wv : Valuation τ sig (Elt F)) :
    after opsD0 Wv (Proc.devRef .tc main_arg1) = Wv (Proc.devRef .tc main_arg1) := by
  after_results_simp
theorem D0_keep_arg2 (Wv : Valuation τ sig (Elt F)) :
    after opsD0 Wv (Proc.devRef .tc main_arg2) = Wv (Proc.devRef .tc main_arg2) := by
  after_results_simp
theorem D0_keep_arg3 (Wv : Valuation τ sig (Elt F)) :
    after opsD0 Wv (Proc.devRef .tc main_arg3) = Wv (Proc.devRef .tc main_arg3) := by
  after_results_simp
theorem D0_keep_arg4 (Wv : Valuation τ sig (Elt F)) :
    after opsD0 Wv (Proc.devRef .tc main_arg4) = Wv (Proc.devRef .tc main_arg4) := by
  after_results_simp
theorem D0_keep_arg5 (Wv : Valuation τ sig (Elt F)) :
    after opsD0 Wv (Proc.devRef .tc main_arg5) = Wv (Proc.devRef .tc main_arg5) := by
  after_results_simp
theorem D_keep_v51 (Wv : Valuation τ sig (Elt F)) :
    after opsD Wv (Proc.devRef .tc main_v51) = Wv (Proc.devRef .tc main_v51) := by
  after_results_simp
theorem D_keep_v52 (Wv : Valuation τ sig (Elt F)) :
    after opsD Wv (Proc.devRef .tc main_v52) = Wv (Proc.devRef .tc main_v52) := by
  after_results_simp
theorem D_keep_v49 (Wv : Valuation τ sig (Elt F)) :
    after opsD Wv (Proc.devRef .tc main_v49) = Wv (Proc.devRef .tc main_v49) := by
  after_results_simp
theorem D_keep_arg0 (Wv : Valuation τ sig (Elt F)) :
    after opsD Wv (Proc.devRef .tc main_arg0) = Wv (Proc.devRef .tc main_arg0) := by
  after_results_simp
theorem D_keep_arg1 (Wv : Valuation τ sig (Elt F)) :
    after opsD Wv (Proc.devRef .tc main_arg1) = Wv (Proc.devRef .tc main_arg1) := by
  after_results_simp
theorem D_keep_arg2 (Wv : Valuation τ sig (Elt F)) :
    after opsD Wv (Proc.devRef .tc main_arg2) = Wv (Proc.devRef .tc main_arg2) := by
  after_results_simp
theorem D_keep_arg3 (Wv : Valuation τ sig (Elt F)) :
    after opsD Wv (Proc.devRef .tc main_arg3) = Wv (Proc.devRef .tc main_arg3) := by
  after_results_simp
theorem D_keep_arg4 (Wv : Valuation τ sig (Elt F)) :
    after opsD Wv (Proc.devRef .tc main_arg4) = Wv (Proc.devRef .tc main_arg4) := by
  after_results_simp
theorem D_keep_arg5 (Wv : Valuation τ sig (Elt F)) :
    after opsD Wv (Proc.devRef .tc main_arg5) = Wv (Proc.devRef .tc main_arg5) := by
  after_results_simp
theorem E_keep_arg0 (Wv : Valuation τ sig (Elt F)) :
    after opsE Wv (Proc.devRef .tc main_arg0) = Wv (Proc.devRef .tc main_arg0) := by
  after_results_simp
theorem E_keep_arg1 (Wv : Valuation τ sig (Elt F)) :
    after opsE Wv (Proc.devRef .tc main_arg1) = Wv (Proc.devRef .tc main_arg1) := by
  after_results_simp
theorem E_keep_arg2 (Wv : Valuation τ sig (Elt F)) :
    after opsE Wv (Proc.devRef .tc main_arg2) = Wv (Proc.devRef .tc main_arg2) := by
  after_results_simp
theorem E_keep_arg3 (Wv : Valuation τ sig (Elt F)) :
    after opsE Wv (Proc.devRef .tc main_arg3) = Wv (Proc.devRef .tc main_arg3) := by
  after_results_simp
theorem E_keep_arg4 (Wv : Valuation τ sig (Elt F)) :
    after opsE Wv (Proc.devRef .tc main_arg4) = Wv (Proc.devRef .tc main_arg4) := by
  after_results_simp
theorem E_keep_arg5 (Wv : Valuation τ sig (Elt F)) :
    after opsE Wv (Proc.devRef .tc main_arg5) = Wv (Proc.devRef .tc main_arg5) := by
  after_results_simp
theorem G_keep_v94 (Wv : Valuation τ sig (Elt F)) :
    after opsG Wv (Proc.devRef .tc main_v94) = Wv (Proc.devRef .tc main_v94) := by
  after_results_simp
theorem G_keep_arg0 (Wv : Valuation τ sig (Elt F)) :
    after opsG Wv (Proc.devRef .tc main_arg0) = Wv (Proc.devRef .tc main_arg0) := by
  after_results_simp
theorem G_keep_arg1 (Wv : Valuation τ sig (Elt F)) :
    after opsG Wv (Proc.devRef .tc main_arg1) = Wv (Proc.devRef .tc main_arg1) := by
  after_results_simp
theorem G_keep_arg2 (Wv : Valuation τ sig (Elt F)) :
    after opsG Wv (Proc.devRef .tc main_arg2) = Wv (Proc.devRef .tc main_arg2) := by
  after_results_simp
theorem G_keep_arg3 (Wv : Valuation τ sig (Elt F)) :
    after opsG Wv (Proc.devRef .tc main_arg3) = Wv (Proc.devRef .tc main_arg3) := by
  after_results_simp
theorem G_keep_arg4 (Wv : Valuation τ sig (Elt F)) :
    after opsG Wv (Proc.devRef .tc main_arg4) = Wv (Proc.devRef .tc main_arg4) := by
  after_results_simp
theorem G_keep_arg5 (Wv : Valuation τ sig (Elt F)) :
    after opsG Wv (Proc.devRef .tc main_arg5) = Wv (Proc.devRef .tc main_arg5) := by
  after_results_simp

/-! ## What each chunk computes, from what it reads -/

set_option maxHeartbeats 4000000 in
theorem A_v1 (Wv : Valuation τ sig (Elt F)) (x1 : (⟨S2x3200000, .i32⟩ : BufTy).Contents (Elt F))
    (h : Wv (Proc.devRef .tc main_arg1) = x1) :
    after opsA Wv (Proc.devRef .tc main_v1) = val_main_v1 (F := F) x1 := by
  after_results_simp
  rw [h]
  first | rfl | (simp only [TRef.ofBuf, TRef.toBuf, cast_eq]; rfl)

set_option maxHeartbeats 4000000 in
theorem A_v3 (Wv : Valuation τ sig (Elt F)) (x1 : (⟨S2x3200000, .i32⟩ : BufTy).Contents (Elt F))
    (h : Wv (Proc.devRef .tc main_arg1) = x1) :
    after opsA Wv (Proc.devRef .tc main_v3) = val_main_v3 (F := F) x1 := by
  after_results_simp
  rw [h]
  first | rfl | (simp only [TRef.ofBuf, TRef.toBuf, cast_eq]; rfl)

set_option maxHeartbeats 4000000 in
theorem A_v4 (Wv : Valuation τ sig (Elt F))
     :
    after opsA Wv (Proc.devRef .tc main_v4) = val_main_v4 (F := F) := by
  after_results_simp
  first | rfl | (simp only [TRef.ofBuf, TRef.toBuf, cast_eq]; rfl)

set_option maxHeartbeats 4000000 in
theorem B0_v5 (Wv : Valuation τ sig (Elt F)) (x1 : (⟨S2x3200000, .i32⟩ : BufTy).Contents (Elt F))
    (h1 : Wv (Proc.devRef .tc main_v1) = val_main_v1 (F := F) x1)
    (h4 : Wv (Proc.devRef .tc main_v4) = val_main_v4 (F := F)) :
    after opsB0 Wv (Proc.devRef .tc main_v5) = val_main_v5 (F := F) x1 := by
  after_results
  rw [h1, h4]
  first | rfl | (simp only [TRef.ofBuf, TRef.toBuf, cast_eq]; rfl)

set_option maxHeartbeats 4000000 in
theorem B0_v6 (Wv : Valuation τ sig (Elt F)) (x1 : (⟨S2x3200000, .i32⟩ : BufTy).Contents (Elt F))
    (h3 : Wv (Proc.devRef .tc main_v3) = val_main_v3 (F := F) x1)
    (h4 : Wv (Proc.devRef .tc main_v4) = val_main_v4 (F := F)) :
    after opsB0 Wv (Proc.devRef .tc main_v6) = val_main_v6 (F := F) x1 := by
  after_results
  rw [h3, h4]
  first | rfl | (simp only [TRef.ofBuf, TRef.toBuf, cast_eq]; rfl)

set_option maxHeartbeats 4000000 in
theorem B_v31 (Wv : Valuation τ sig (Elt F)) (x1 : (⟨S2x3200000, .i32⟩ : BufTy).Contents (Elt F))
    (h5 : Wv (Proc.devRef .tc main_v5) = val_main_v5 (F := F) x1)
    (h6 : Wv (Proc.devRef .tc main_v6) = val_main_v6 (F := F) x1) :
    after opsB Wv (Proc.devRef .tc main_v31) = val_main_v31 (F := F) x1 := by
  after_results_simp
  rw [h5, h6]
  first | rfl | (simp only [TRef.ofBuf, TRef.toBuf, cast_eq]; rfl)

set_option maxHeartbeats 4000000 in
theorem C_v49 (Wv : Valuation τ sig (Elt F)) (x0 : (⟨S100000x512, .f32⟩ : BufTy).Contents (Elt F)) (x1 : (⟨S2x3200000, .i32⟩ : BufTy).Contents (Elt F)) (x2 : (⟨S512x8, .f32⟩ : BufTy).Contents (Elt F)) (x3 : (⟨S8, .f32⟩ : BufTy).Contents (Elt F))
    (h5 : Wv (Proc.devRef .tc main_v5) = val_main_v5 (F := F) x1)
    (h6 : Wv (Proc.devRef .tc main_v6) = val_main_v6 (F := F) x1)
    (h31 : Wv (Proc.devRef .tc main_v31) = val_main_v31 (F := F) x1)
    (ha0 : Wv (Proc.devRef .tc main_arg0) = x0)
    (ha2 : Wv (Proc.devRef .tc main_arg2) = x2)
    (ha3 : Wv (Proc.devRef .tc main_arg3) = x3) :
    after opsC Wv (Proc.devRef .tc main_v49) = val_main_v49 (F := F) x0 x1 x2 x3 := by
  after_results_simp
  rw [h5, h6, h31, ha0, ha2, ha3]
  first | rfl | (simp only [TRef.ofBuf, TRef.toBuf, cast_eq]; rfl)

set_option maxHeartbeats 4000000 in
theorem C_v50 (Wv : Valuation τ sig (Elt F))
     :
    after opsC Wv (Proc.devRef .tc main_v50) = val_main_v50 (F := F) := by
  after_results_simp
  first | rfl | (simp only [TRef.ofBuf, TRef.toBuf, cast_eq]; rfl)

set_option maxHeartbeats 4000000 in
theorem D0_v51 (Wv : Valuation τ sig (Elt F)) (x1 : (⟨S2x3200000, .i32⟩ : BufTy).Contents (Elt F))
    (h1 : Wv (Proc.devRef .tc main_v1) = val_main_v1 (F := F) x1)
    (h50 : Wv (Proc.devRef .tc main_v50) = val_main_v50 (F := F)) :
    after opsD0 Wv (Proc.devRef .tc main_v51) = val_main_v51 (F := F) x1 := by
  after_results
  rw [h1, h50]
  first | rfl | (simp only [TRef.ofBuf, TRef.toBuf, cast_eq]; rfl)

set_option maxHeartbeats 4000000 in
theorem D0_v52 (Wv : Valuation τ sig (Elt F)) (x1 : (⟨S2x3200000, .i32⟩ : BufTy).Contents (Elt F))
    (h3 : Wv (Proc.devRef .tc main_v3) = val_main_v3 (F := F) x1)
    (h50 : Wv (Proc.devRef .tc main_v50) = val_main_v50 (F := F)) :
    after opsD0 Wv (Proc.devRef .tc main_v52) = val_main_v52 (F := F) x1 := by
  after_results
  rw [h3, h50]
  first | rfl | (simp only [TRef.ofBuf, TRef.toBuf, cast_eq]; rfl)

set_option maxHeartbeats 4000000 in
theorem D_v77 (Wv : Valuation τ sig (Elt F)) (x1 : (⟨S2x3200000, .i32⟩ : BufTy).Contents (Elt F))
    (h51 : Wv (Proc.devRef .tc main_v51) = val_main_v51 (F := F) x1)
    (h52 : Wv (Proc.devRef .tc main_v52) = val_main_v52 (F := F) x1) :
    after opsD Wv (Proc.devRef .tc main_v77) = val_main_v77 (F := F) x1 := by
  after_results_simp
  rw [h51, h52]
  first | rfl | (simp only [TRef.ofBuf, TRef.toBuf, cast_eq]; rfl)

set_option maxHeartbeats 4000000 in
theorem E_v94 (Wv : Valuation τ sig (Elt F)) (x0 : (⟨S100000x512, .f32⟩ : BufTy).Contents (Elt F)) (x1 : (⟨S2x3200000, .i32⟩ : BufTy).Contents (Elt F)) (x2 : (⟨S512x8, .f32⟩ : BufTy).Contents (Elt F)) (x3 : (⟨S8, .f32⟩ : BufTy).Contents (Elt F)) (x4 : (⟨S8x40, .f32⟩ : BufTy).Contents (Elt F)) (x5 : (⟨S40, .f32⟩ : BufTy).Contents (Elt F))
    (h49 : Wv (Proc.devRef .tc main_v49) = val_main_v49 (F := F) x0 x1 x2 x3)
    (h51 : Wv (Proc.devRef .tc main_v51) = val_main_v51 (F := F) x1)
    (h52 : Wv (Proc.devRef .tc main_v52) = val_main_v52 (F := F) x1)
    (h77 : Wv (Proc.devRef .tc main_v77) = val_main_v77 (F := F) x1)
    (ha4 : Wv (Proc.devRef .tc main_arg4) = x4)
    (ha5 : Wv (Proc.devRef .tc main_arg5) = x5) :
    after opsE Wv (Proc.devRef .tc main_v94) = val_main_v94 (F := F) x0 x1 x2 x3 x4 x5 := by
  after_results_simp
  rw [h49, h51, h52, h77, ha4, ha5]
  first | rfl | (simp only [TRef.ofBuf, TRef.toBuf, cast_eq]; rfl)

/-- The row-wise log-softmax as the reference spells it, of an arbitrary array of logits. -/
def lsm (L : (⟨S100000x40, .f32⟩ : BufTy).Contents (Elt F)) : (⟨S100000x40, .f32⟩ : BufTy).Contents (Elt F) :=
  subf (subf (L) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (L) (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf (L) (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf (L) (constant S_ .f32 0xFF800000#32) reducesTo_S100000x40_S100000_d1 h_S_)))))) (constant S_ .f32 0x00000000#32) reducesTo_S100000x40_S100000_d1 h_S_))))

/-- Contents carried to a typed reference's buffer and back are unchanged. -/
theorem ofBuf_toBuf {T : BufTy} (x : TRef sig T) (v : T.Contents (Elt F)) : x.ofBuf (x.toBuf v) = v := by
  obtain ⟨r, hty, h1, h2⟩ := x
  subst hty
  rfl

theorem toBuf_v95 (X : (⟨S100000x40, .f32⟩ : BufTy).Contents (Elt F)) :
    (TRef.of (T := ⟨S100000x40, .f32⟩) main_v95).toBuf X = X := rfl

theorem ofBuf_v94 (Y : (⟨S100000x40, .f32⟩ : BufTy).Contents (Elt F)) :
    (TRef.of (T := ⟨S100000x40, .f32⟩) main_v94).ofBuf Y = Y := rfl

set_option maxHeartbeats 2000000 in
/-- The last chunk computes that log-softmax of whatever the logits buffer holds. -/
theorem G_lsm (Wv : Valuation τ sig (Elt F)) (L : (⟨S100000x40, .f32⟩ : BufTy).Contents (Elt F))
    (h94 : Wv (Proc.devRef .tc main_v94) = L) :
    after opsG Wv (Proc.devRef .tc main_v95) = lsm L := by
  after_results_simp
  simp only [ofBuf_toBuf]
  rw [toBuf_v95, h94]
  simp only [ofBuf_v94]
  rfl

/-- The first result's stage is that log-softmax of the second result's stage. -/
theorem v95_lsm (x0 : (⟨S100000x512, .f32⟩ : BufTy).Contents (Elt F)) (x1 : (⟨S2x3200000, .i32⟩ : BufTy).Contents (Elt F)) (x2 : (⟨S512x8, .f32⟩ : BufTy).Contents (Elt F)) (x3 : (⟨S8, .f32⟩ : BufTy).Contents (Elt F)) (x4 : (⟨S8x40, .f32⟩ : BufTy).Contents (Elt F)) (x5 : (⟨S40, .f32⟩ : BufTy).Contents (Elt F)) :
    val_main_v95 (F := F) x0 x1 x2 x3 x4 x5 = lsm (val_main_v94 (F := F) x0 x1 x2 x3 x4 x5) := by
  simp only [val_main_v95, val_main_call3_v10, val_main_call3_v9, val_main_call3_v8, val_main_call3_v7, val_main_call3_cst_1, val_main_call3_v6, val_main_call3_v5, val_main_call3_v4, val_main_call3_v3, val_main_call3_v2, val_main_call3_v1, val_main_call3_cst_0, val_main_call3_v0, val_main_call3_cst]
  generalize val_main_v94 (F := F) x0 x1 x2 x3 x4 x5 = L
  rfl

/-- So the last chunk leaves the first result's stage. -/
theorem G_v95 (Wv : Valuation τ sig (Elt F)) (x0 : (⟨S100000x512, .f32⟩ : BufTy).Contents (Elt F)) (x1 : (⟨S2x3200000, .i32⟩ : BufTy).Contents (Elt F)) (x2 : (⟨S512x8, .f32⟩ : BufTy).Contents (Elt F)) (x3 : (⟨S8, .f32⟩ : BufTy).Contents (Elt F)) (x4 : (⟨S8x40, .f32⟩ : BufTy).Contents (Elt F)) (x5 : (⟨S40, .f32⟩ : BufTy).Contents (Elt F))
    (h94 : Wv (Proc.devRef .tc main_v94) = val_main_v94 (F := F) x0 x1 x2 x3 x4 x5) :
    after opsG Wv (Proc.devRef .tc main_v95) = val_main_v95 (F := F) x0 x1 x2 x3 x4 x5 :=
  (G_lsm Wv _ h94).trans (v95_lsm x0 x1 x2 x3 x4 x5).symm

/-! ## The chunks chained -/

set_option maxHeartbeats 4000000 in
/-- After the whole line, from any valuation holding the six arguments: the two results at their stages, the arguments kept. -/
theorem after_ops_values (V : Valuation τ sig (Elt F))
    (x0 : (⟨S100000x512, .f32⟩ : BufTy).Contents (Elt F)) (x1 : (⟨S2x3200000, .i32⟩ : BufTy).Contents (Elt F)) (x2 : (⟨S512x8, .f32⟩ : BufTy).Contents (Elt F)) (x3 : (⟨S8, .f32⟩ : BufTy).Contents (Elt F)) (x4 : (⟨S8x40, .f32⟩ : BufTy).Contents (Elt F)) (x5 : (⟨S40, .f32⟩ : BufTy).Contents (Elt F))
    (h0 : V (Proc.devRef .tc main_arg0) = x0) (h1 : V (Proc.devRef .tc main_arg1) = x1) (h2 : V (Proc.devRef .tc main_arg2) = x2)
    (h3 : V (Proc.devRef .tc main_arg3) = x3) (h4 : V (Proc.devRef .tc main_arg4) = x4) (h5 : V (Proc.devRef .tc main_arg5) = x5) :
    after ops V (Proc.devRef .tc main_v95) = val_main_v95 (F := F) x0 x1 x2 x3 x4 x5
    ∧ after ops V (Proc.devRef .tc main_v94) = val_main_v94 (F := F) x0 x1 x2 x3 x4 x5
    ∧ after ops V (Proc.devRef .tc main_arg0) = x0 ∧ after ops V (Proc.devRef .tc main_arg1) = x1 ∧ after ops V (Proc.devRef .tc main_arg2) = x2
    ∧ after ops V (Proc.devRef .tc main_arg3) = x3 ∧ after ops V (Proc.devRef .tc main_arg4) = x4 ∧ after ops V (Proc.devRef .tc main_arg5) = x5 := by
  rw [after_ops]
  -- after the operations of chunk A
  have a_v1 := A_v1 V x1 h1
  have a_v3 := A_v3 V x1 h1
  have a_v4 := A_v4 V
  have a_arg0 := (A_keep_arg0 V).trans h0
  have a_arg1 := (A_keep_arg1 V).trans h1
  have a_arg2 := (A_keep_arg2 V).trans h2
  have a_arg3 := (A_keep_arg3 V).trans h3
  have a_arg4 := (A_keep_arg4 V).trans h4
  have a_arg5 := (A_keep_arg5 V).trans h5
  -- after the operations of chunk B0
  have b0_v5 := B0_v5 (after opsA V) x1 a_v1 a_v4
  have b0_v6 := B0_v6 (after opsA V) x1 a_v3 a_v4
  have b0_v1 := (B0_keep_v1 (after opsA V)).trans a_v1
  have b0_v3 := (B0_keep_v3 (after opsA V)).trans a_v3
  have b0_arg0 := (B0_keep_arg0 (after opsA V)).trans a_arg0
  have b0_arg1 := (B0_keep_arg1 (after opsA V)).trans a_arg1
  have b0_arg2 := (B0_keep_arg2 (after opsA V)).trans a_arg2
  have b0_arg3 := (B0_keep_arg3 (after opsA V)).trans a_arg3
  have b0_arg4 := (B0_keep_arg4 (after opsA V)).trans a_arg4
  have b0_arg5 := (B0_keep_arg5 (after opsA V)).trans a_arg5
  -- after the operations of chunk B
  have b_v31 := B_v31 (after opsB0 (after opsA V)) x1 b0_v5 b0_v6
  have b_v5 := (B_keep_v5 (after opsB0 (after opsA V))).trans b0_v5
  have b_v6 := (B_keep_v6 (after opsB0 (after opsA V))).trans b0_v6
  have b_v1 := (B_keep_v1 (after opsB0 (after opsA V))).trans b0_v1
  have b_v3 := (B_keep_v3 (after opsB0 (after opsA V))).trans b0_v3
  have b_arg0 := (B_keep_arg0 (after opsB0 (after opsA V))).trans b0_arg0
  have b_arg1 := (B_keep_arg1 (after opsB0 (after opsA V))).trans b0_arg1
  have b_arg2 := (B_keep_arg2 (after opsB0 (after opsA V))).trans b0_arg2
  have b_arg3 := (B_keep_arg3 (after opsB0 (after opsA V))).trans b0_arg3
  have b_arg4 := (B_keep_arg4 (after opsB0 (after opsA V))).trans b0_arg4
  have b_arg5 := (B_keep_arg5 (after opsB0 (after opsA V))).trans b0_arg5
  -- after the operations of chunk C
  have c_v49 := C_v49 (after opsB (after opsB0 (after opsA V))) x0 x1 x2 x3 b_v5 b_v6 b_v31 b_arg0 b_arg2 b_arg3
  have c_v50 := C_v50 (after opsB (after opsB0 (after opsA V)))
  have c_v1 := (C_keep_v1 (after opsB (after opsB0 (after opsA V)))).trans b_v1
  have c_v3 := (C_keep_v3 (after opsB (after opsB0 (after opsA V)))).trans b_v3
  have c_arg0 := (C_keep_arg0 (after opsB (after opsB0 (after opsA V)))).trans b_arg0
  have c_arg1 := (C_keep_arg1 (after opsB (after opsB0 (after opsA V)))).trans b_arg1
  have c_arg2 := (C_keep_arg2 (after opsB (after opsB0 (after opsA V)))).trans b_arg2
  have c_arg3 := (C_keep_arg3 (after opsB (after opsB0 (after opsA V)))).trans b_arg3
  have c_arg4 := (C_keep_arg4 (after opsB (after opsB0 (after opsA V)))).trans b_arg4
  have c_arg5 := (C_keep_arg5 (after opsB (after opsB0 (after opsA V)))).trans b_arg5
  -- after the operations of chunk D0
  have d0_v51 := D0_v51 (after opsC (after opsB (after opsB0 (after opsA V)))) x1 c_v1 c_v50
  have d0_v52 := D0_v52 (after opsC (after opsB (after opsB0 (after opsA V)))) x1 c_v3 c_v50
  have d0_v49 := (D0_keep_v49 (after opsC (after opsB (after opsB0 (after opsA V))))).trans c_v49
  have d0_arg0 := (D0_keep_arg0 (after opsC (after opsB (after opsB0 (after opsA V))))).trans c_arg0
  have d0_arg1 := (D0_keep_arg1 (after opsC (after opsB (after opsB0 (after opsA V))))).trans c_arg1
  have d0_arg2 := (D0_keep_arg2 (after opsC (after opsB (after opsB0 (after opsA V))))).trans c_arg2
  have d0_arg3 := (D0_keep_arg3 (after opsC (after opsB (after opsB0 (after opsA V))))).trans c_arg3
  have d0_arg4 := (D0_keep_arg4 (after opsC (after opsB (after opsB0 (after opsA V))))).trans c_arg4
  have d0_arg5 := (D0_keep_arg5 (after opsC (after opsB (after opsB0 (after opsA V))))).trans c_arg5
  -- after the operations of chunk D
  have d_v77 := D_v77 (after opsD0 (after opsC (after opsB (after opsB0 (after opsA V))))) x1 d0_v51 d0_v52
  have d_v51 := (D_keep_v51 (after opsD0 (after opsC (after opsB (after opsB0 (after opsA V)))))).trans d0_v51
  have d_v52 := (D_keep_v52 (after opsD0 (after opsC (after opsB (after opsB0 (after opsA V)))))).trans d0_v52
  have d_v49 := (D_keep_v49 (after opsD0 (after opsC (after opsB (after opsB0 (after opsA V)))))).trans d0_v49
  have d_arg0 := (D_keep_arg0 (after opsD0 (after opsC (after opsB (after opsB0 (after opsA V)))))).trans d0_arg0
  have d_arg1 := (D_keep_arg1 (after opsD0 (after opsC (after opsB (after opsB0 (after opsA V)))))).trans d0_arg1
  have d_arg2 := (D_keep_arg2 (after opsD0 (after opsC (after opsB (after opsB0 (after opsA V)))))).trans d0_arg2
  have d_arg3 := (D_keep_arg3 (after opsD0 (after opsC (after opsB (after opsB0 (after opsA V)))))).trans d0_arg3
  have d_arg4 := (D_keep_arg4 (after opsD0 (after opsC (after opsB (after opsB0 (after opsA V)))))).trans d0_arg4
  have d_arg5 := (D_keep_arg5 (after opsD0 (after opsC (after opsB (after opsB0 (after opsA V)))))).trans d0_arg5
  -- after the operations of chunk E
  have e_v94 := E_v94 (after opsD (after opsD0 (after opsC (after opsB (after opsB0 (after opsA V)))))) x0 x1 x2 x3 x4 x5 d_v49 d_v51 d_v52 d_v77 d_arg4 d_arg5
  have e_arg0 := (E_keep_arg0 (after opsD (after opsD0 (after opsC (after opsB (after opsB0 (after opsA V))))))).trans d_arg0
  have e_arg1 := (E_keep_arg1 (after opsD (after opsD0 (after opsC (after opsB (after opsB0 (after opsA V))))))).trans d_arg1
  have e_arg2 := (E_keep_arg2 (after opsD (after opsD0 (after opsC (after opsB (after opsB0 (after opsA V))))))).trans d_arg2
  have e_arg3 := (E_keep_arg3 (after opsD (after opsD0 (after opsC (after opsB (after opsB0 (after opsA V))))))).trans d_arg3
  have e_arg4 := (E_keep_arg4 (after opsD (after opsD0 (after opsC (after opsB (after opsB0 (after opsA V))))))).trans d_arg4
  have e_arg5 := (E_keep_arg5 (after opsD (after opsD0 (after opsC (after opsB (after opsB0 (after opsA V))))))).trans d_arg5
  -- after the operations of chunk G
  have g_v95 := G_v95 (after opsE (after opsD (after opsD0 (after opsC (after opsB (after opsB0 (after opsA V))))))) x0 x1 x2 x3 x4 x5 e_v94
  have g_v94 := (G_keep_v94 (after opsE (after opsD (after opsD0 (after opsC (after opsB (after opsB0 (after opsA V)))))))).trans e_v94
  have g_arg0 := (G_keep_arg0 (after opsE (after opsD (after opsD0 (after opsC (after opsB (after opsB0 (after opsA V)))))))).trans e_arg0
  have g_arg1 := (G_keep_arg1 (after opsE (after opsD (after opsD0 (after opsC (after opsB (after opsB0 (after opsA V)))))))).trans e_arg1
  have g_arg2 := (G_keep_arg2 (after opsE (after opsD (after opsD0 (after opsC (after opsB (after opsB0 (after opsA V)))))))).trans e_arg2
  have g_arg3 := (G_keep_arg3 (after opsE (after opsD (after opsD0 (after opsC (after opsB (after opsB0 (after opsA V)))))))).trans e_arg3
  have g_arg4 := (G_keep_arg4 (after opsE (after opsD (after opsD0 (after opsC (after opsB (after opsB0 (after opsA V)))))))).trans e_arg4
  have g_arg5 := (G_keep_arg5 (after opsE (after opsD (after opsD0 (after opsC (after opsB (after opsB0 (after opsA V)))))))).trans e_arg5
  exact ⟨g_v95, g_v94, g_arg0, g_arg1, g_arg2, g_arg3, g_arg4, g_arg5⟩

/-! ## The run -/

/-- On every device, for any float values, from any memory with zero counters: every weakly fair execution of @main
    terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      obtain ⟨g95, g94, g0, g1, g2, g3, g4, g5⟩ := after_ops_values (F := F) (launchContents m c)
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl
      exact ⟨(h c main_v95).trans g95, (h c main_v94).trans g94, (h c main_arg0).trans g0, (h c main_arg1).trans g1,
        (h c main_arg2).trans g2, (h c main_arg3).trans g3, (h c main_arg4).trans g4, (h c main_arg5).trans g5⟩)
    (run_seq scopedRefs_eq scopedSems_eq defs main (fun _ => ops) main_eq (fun _ => ops_sub) m ρ (fun _ => ops_fresh))

end Cert.ReferenceIdeal.HandRun

end
-- ==== Proof.Spec.lean ====
/-
  The mathematics of the two-layer graph convolution, stated once over literal shapes and free of either program.
  Every array is a function from a multi-index to an extended real. The dense stages are:
  a matrix product (a sum over the contracted axis), a bias row added to every node followed by a clamp at zero,
  a bias row added to every node (the logits), and the row-wise log-softmax of the logits
  (subtract the row maximum, then subtract the logarithm of the row sum of exponentials).
  Both programs compute these same dense stages; between them sit gather / scale / scatter-add steps over the edge list,
  which both programs spell with the same host operations and which are therefore carried as opaque functions elsewhere.
-/
import Idealize.ShloMosaic.PureOps.Ideal
import Idealize.ShloMosaic.Lib.ValueIdx

noncomputable section

namespace Cert.Spec

open Idealize.ShloMosaic Idealize.ShloMosaic.ValueIdx

/-- Node features times the first weight matrix: entry (r, q) is the sum over the 512 input features. -/
def mm1 (x : (⟨2, ![100000, 512]⟩ : Shape).Idx → EReal) (w : (⟨2, ![512, 8]⟩ : Shape).Idx → EReal) :
    (⟨2, ![100000, 8]⟩ : Shape).Idx → EReal :=
  fun i => ∑ k : Fin 512, x (ix2 (i 0) k) * w (ix2 k (i 1))

/-- Hidden features times the second weight matrix: entry (r, q) is the sum over the 8 hidden features. -/
def mm2 (h : (⟨2, ![100000, 8]⟩ : Shape).Idx → EReal) (w : (⟨2, ![8, 40]⟩ : Shape).Idx → EReal) :
    (⟨2, ![100000, 40]⟩ : Shape).Idx → EReal :=
  fun i => ∑ k : Fin 8, h (ix2 (i 0) k) * w (ix2 k (i 1))

/-- The first layer's activation: the aggregated row plus the bias row, clamped below at the float zero. -/
def biasRelu (a : (⟨2, ![100000, 8]⟩ : Shape).Idx → EReal) (b : (⟨2, ![1, 8]⟩ : Shape).Idx → EReal) :
    (⟨2, ![100000, 8]⟩ : Shape).Idx → EReal :=
  fun i => max (a i + b (ix2 0 (i 1))) (Ideal.ofBits .f32 0x00000000#32)

/-- The logits: the aggregated row plus the bias row. -/
def logits (a : (⟨2, ![100000, 40]⟩ : Shape).Idx → EReal) (b : (⟨2, ![1, 40]⟩ : Shape).Idx → EReal) :
    (⟨2, ![100000, 40]⟩ : Shape).Idx → EReal :=
  fun i => a i + b (ix2 0 (i 1))

/-- The maximum of row `r` of a 40-column array, folded from the float negative infinity. -/
def rowMax (l : (⟨2, ![100000, 40]⟩ : Shape).Idx → EReal) (r : Fin 100000) : EReal :=
  (Finset.univ : Finset (Fin 40)).fold max (Ideal.ofBits .f32 0xFF800000#32) (fun q => l (ix2 r q))

/-- Row-wise log-softmax: shift by the row maximum, then subtract the logarithm of the row's sum of exponentials. -/
def logSoftmax (l : (⟨2, ![100000, 40]⟩ : Shape).Idx → EReal) : (⟨2, ![100000, 40]⟩ : Shape).Idx → EReal :=
  fun i => (l i - rowMax l (i 0)) - Ideal.log (∑ q : Fin 40, Ideal.exp (l (ix2 (i 0) q) - rowMax l (i 0)))

end Cert.Spec

end
-- ==== Proof.Region0.lean ====
/-
  Pallas call 0 (node features times the first weight matrix): what its output array holds when the call returns.
  The grid walks the 100000 rows in 25 tiles of 4000; at tile t the body loads rows [4000·t, 4000·(t+1)) of the left operand
  and the whole right operand, multiplies them into a zero accumulator and stores the 4000 × 8 product, which is written
  back to the same rows of the output. At the ideal values the change of float format before the product is the
  identity and the product into zero is the plain sum over the contracted axis, so tile t of the output is tile t of
  the full matrix product; the tiles cover every row, hence the whole array is the matrix product of the two
  operand arrays as the call finds them.
-/
import proofs.«109300_j36249523978477_1_alg».proof.Proof.Gen.KernelIdeal.Frame
import proofs.«109300_j36249523978477_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-! ## The product read at an index -/

theorem lhs_axis0 (i : S4000x8.Idx) (q : dot_S4000x512_S512x8_S4000x8_1_0_0_1_n_n.contr.Idx) :
    (dot_S4000x512_S512x8_S4000x8_1_0_0_1_n_n.lhsIdx i q 0).val = (i 0).val := by
  unfold DotDims.lhsIdx
  rw [dif_neg (show ¬(0 : Fin S4000x512.rank) ∈ dot_S4000x512_S512x8_S4000x8_1_0_0_1_n_n.lhsBatch by decide), dif_pos (show (0 : Fin S4000x512.rank) ∈ dot_S4000x512_S512x8_S4000x8_1_0_0_1_n_n.lhsNonContracting by decide)]
  rfl
theorem lhs_axis1 (i : S4000x8.Idx) (q : dot_S4000x512_S512x8_S4000x8_1_0_0_1_n_n.contr.Idx) :
    (dot_S4000x512_S512x8_S4000x8_1_0_0_1_n_n.lhsIdx i q 1).val = (q ⟨0, by decide⟩).val :=
  dot_S4000x512_S512x8_S4000x8_1_0_0_1_n_n.lhsIdx_val_of_single rfl i q
theorem rhs_axis0 (i : S4000x8.Idx) (q : dot_S4000x512_S512x8_S4000x8_1_0_0_1_n_n.contr.Idx) :
    (dot_S4000x512_S512x8_S4000x8_1_0_0_1_n_n.rhsIdx i q 0).val = (q ⟨0, by decide⟩).val :=
  dot_S4000x512_S512x8_S4000x8_1_0_0_1_n_n.rhsIdx_val_of_single rfl i q
theorem rhs_axis1 (i : S4000x8.Idx) (q : dot_S4000x512_S512x8_S4000x8_1_0_0_1_n_n.contr.Idx) :
    (dot_S4000x512_S512x8_S4000x8_1_0_0_1_n_n.rhsIdx i q 1).val = (i 1).val := by
  unfold DotDims.rhsIdx
  rw [dif_neg (show ¬(1 : Fin S512x8.rank) ∈ dot_S4000x512_S512x8_S4000x8_1_0_0_1_n_n.rhsBatch by decide), dif_pos (show (1 : Fin S512x8.rank) ∈ dot_S4000x512_S512x8_S4000x8_1_0_0_1_n_n.rhsNonContracting by decide)]
  rfl

/-- The body's stored value at row p, column q of the tile: the sum over the contracted axis of the loaded tile's row p
    times the loaded right operand's column q (the narrowing before the product is the identity at the ideal values). -/
theorem payload_apply (x0 : Vec Ideal S4000x512 .f32) (x1 : Vec Ideal S512x8 .f32) (j : S4000x8.Idx) :
    k0_pay1 x0 x1 j = ∑ k : Fin 512, x0 (ix2 (j 0) k) * x1 (ix2 k (j 1)) := by
  unfold k0_pay1
  simp only [matmul]
  rw [Ideal.matmul_constant_zero_apply, ← Equiv.sum_comp (contrEquiv1 dot_S4000x512_S512x8_S4000x8_1_0_0_1_n_n 512 rfl rfl).symm]
  refine Finset.sum_congr rfl fun k _ => ?_
  have hk := contrEquiv1_symm_val dot_S4000x512_S512x8_S4000x8_1_0_0_1_n_n 512 rfl rfl k
  have el : dot_S4000x512_S512x8_S4000x8_1_0_0_1_n_n.lhsIdx j ((contrEquiv1 dot_S4000x512_S512x8_S4000x8_1_0_0_1_n_n 512 rfl rfl).symm k) = ix2 (j 0) k := funext fun a => Fin.ext (by
    match a with
    | ⟨0, _⟩ => exact lhs_axis0 _ _
    | ⟨1, _⟩ => exact (lhs_axis1 _ _).trans hk)
  have er : dot_S4000x512_S512x8_S4000x8_1_0_0_1_n_n.rhsIdx j ((contrEquiv1 dot_S4000x512_S512x8_S4000x8_1_0_0_1_n_n 512 rfl rfl).symm k) = ix2 k (j 1) := funext fun a => Fin.ext (by
    match a with
    | ⟨0, _⟩ => exact (rhs_axis0 _ _).trans hk
    | ⟨1, _⟩ => exact rhs_axis1 _ _)
  rw [el, er]
  rfl

/-! ## From tiles to the array -/

/-- The printed index maps over the grid: the left operand's tile moves with the output's, the right operand stays. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row tile is some grid point's. -/
theorem index_onto : ∀ (q0 : Fin 25), ∃ t : Fin cfg0.N, win0_2.index t = ![q0.val, 0] :=
  (by decide +kernel : ∀ (q0 : Fin 25), ∃ t : Fin grid0.N, win0_2.index t = ![q0.val, 0])

/-- What grid point t writes back is tile t of the matrix product of the operand arrays. -/
theorem flushed_eq (c : Dev nD) (t : Fin cfg0.N) :
    (dat0 V c).flushed 2 t = ((cfg0.win 2).blk t).view.read (Elt Ideal) (Cert.Spec.mm1 (V c main_arg0) (V c main_arg2)) := by
  show (cfg0.win 2).cut (grid0.coords t) ((dat0 V c).after 2 t) = _
  rw [after0_2]
  unfold out0_2
  rw [View.canon_unit_zero origin_zero]
  simp only [View.ld_unit_zero (S := S4000x512) origin_zero, View.ld_unit_zero (S := S512x8) origin_zero]
  obtain ⟨e0, e1, e2, e3, e4, e5⟩ := index_facts t
  funext j
  show k0_pay1 (iblk0 V c 0 t) (iblk0 V c 1 t) j = Cert.Spec.mm1 (V c main_arg0) (V c main_arg2) (((cfg0.win 2).blk t).view.emb j)
  refine (payload_apply (iblk0 V c 0 t) (iblk0 V c 1 t) j).trans ?_
  unfold Cert.Spec.mm1
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  have h1 : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 8 + 1 * (j 1).val = win0_2.index t (1 : Fin 2) * 8 + 1 * (j 1).val; omega
  rw [h0, h1]

/-- An index of the output array lies in grid point t's tile iff each coordinate is in the tile's range on its axis. -/
theorem mem_blk (t : Fin cfg0.N) (i : S100000x8.Idx) :
    i ∈ ((cfg0.win 2).blk t).view.set ↔ ∀ a : Fin 2, win0_2.index t a * S4000x8.size a ≤ (i a).val ∧ (i a).val < win0_2.index t a * S4000x8.size a + S4000x8.size a := by
  show i ∈ ((View.whole main_v33).slice (win0_2.rect t)).set ↔ _
  rw [View.set_slice_whole, Rect.mem_set_unit]
  exact Iff.rfl

/-- Every index of the output array lies in some grid point's tile: row r is in tile r / 4000. -/
theorem covered (i : S100000x8.Idx) :
    ∃ t : Fin cfg0.N, (cfg0.win 2).flush t = true ∧ i ∈ ((cfg0.win 2).blk t).view.set := by
  have hi0 : (i 0).val < 100000 := (i 0).isLt
  have hi1 : (i 1).val < 8 := (i 1).isLt
  obtain ⟨t, ht⟩ := index_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 8 ≤ (i 1).val ∧ (i 1).val < win0_2.index t (1 : Fin 2) * 8 + 8; omega

/-- The output array when the call returns: the matrix product of the two operand arrays as the call finds them. -/
theorem value (c : Dev nD) :
    (dat0 V c).arrAt 2 cfg0.N = Cert.Spec.mm1 (V c main_arg0) (V c main_arg2) :=
  (dat0 V c).arrAt_eq_of_cover 2 _ (fun t _ => flushed_eq V c t) covered

end Cert.KernelIdeal.Region0

end
-- ==== Proof.Region1.lean ====
/-
  Pallas call 1 (bias and clamp at zero): what its output array holds when the call returns.
  The grid walks the 100000 rows in 20 tiles of 5000; at tile t the body loads rows [5000·t, 5000·(t+1)) of the
  aggregated features and the one bias row, adds the bias row to every loaded row and takes the maximum with the
  float zero, and stores the 5000 × 8 result, which is written back to the same rows of the output. At the ideal
  values the sum and the maximum are the extended reals' own, entry by entry, so tile t of the output is tile t of the
  whole-array function (row plus bias row, clamped below at zero); the tiles cover every row, hence the whole array
  is that function of the two input arrays as the call finds them.
-/
import proofs.«109300_j36249523978477_1_alg».proof.Proof.Gen.KernelIdeal.Frame
import proofs.«109300_j36249523978477_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-! ## The clamped sum read at an index -/

/-- The body's stored value at row p, column q of the tile: the loaded tile's entry (p, q) plus the bias row's entry q,
    or the float zero when that is larger (the two casts to the same shape are the identity, the bias row is read at
    its one row whatever p is, and the constant tile holds the float zero everywhere). -/
theorem payload_ix2 (x0 : Vec Ideal S5000x8 .f32) (x1 : Vec Ideal S1x8 .f32) (p : Fin 5000) (q : Fin 8) :
    k1_pay1 x0 x1 (ix2 p q) = max (x0 (ix2 p q) + x1 (ix2 (0 : Fin 1) q)) (Ideal.ofBits .f32 0x00000000#32) := by
  unfold k1_pay1
  show maximumf (F := Ideal) (s := S5000x8) (φ := .f32)
      (addf (shapeCast S5000x8 (x0 : FVec Ideal S5000x8 .f32) shapeCasts_S5000x8_S5000x8)
        (broadcastTo S5000x8 (shapeCast S1x8 (x1 : FVec Ideal S1x8 .f32) shapeCasts_S1x8_S1x8) broadcasts_S1x8_S5000x8))
      (broadcast S5000x8 (Scalar.ofBits (F := Ideal) .f32 0x00000000#32)) (ix2 p q) = _
  rw [shapeCast_self, shapeCast_self, maximumf_apply, addf_apply, broadcast_apply,
    broadcastTo_1b_ab_apply x1 broadcasts_S1x8_S5000x8 p q]
  rfl

/-- The same at any index of the tile. -/
theorem payload_apply (x0 : Vec Ideal S5000x8 .f32) (x1 : Vec Ideal S1x8 .f32) (j : S5000x8.Idx) :
    k1_pay1 x0 x1 j = max (x0 (ix2 (j 0) (j 1)) + x1 (ix2 (0 : Fin 1) (j 1))) (Ideal.ofBits .f32 0x00000000#32) := by
  have hj : j = ix2 (j 0) (j 1) := eq_ix2 j
  exact (congrArg (k1_pay1 x0 x1) hj).trans (payload_ix2 x0 x1 (j 0) (j 1))

/-! ## From tiles to the array -/

/-- The printed index maps over the grid: the input's tile moves with the output's, the bias row stays. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every row tile is some grid point's. -/
theorem index_onto : ∀ (q0 : Fin 20), ∃ t : Fin cfg1.N, win1_2.index t = ![q0.val, 0] :=
  (by decide +kernel : ∀ (q0 : Fin 20), ∃ t : Fin grid1.N, win1_2.index t = ![q0.val, 0])

/-- What grid point t writes back is tile t of the whole-array function of the two input arrays. -/
theorem flushed_eq (c : Dev nD) (t : Fin cfg1.N) :
    (dat1 V c).flushed 2 t = ((cfg1.win 2).blk t).view.read (Elt Ideal) (Cert.Spec.biasRelu (V c main_v45) (V c main_v46)) := by
  show (cfg1.win 2).cut (grid1.coords t) ((dat1 V c).after 2 t) = _
  rw [after1_2]
  unfold out1_2
  rw [View.canon_unit_zero origin_zero]
  simp only [View.ld_unit_zero (S := S5000x8) origin_zero, View.ld_unit_zero (S := S1x8) origin_zero]
  obtain ⟨e0, e1, e2, e3, e4, e5⟩ := index_facts t
  funext j
  show k1_pay1 (iblk1 V c 0 t) (iblk1 V c 1 t) j = Cert.Spec.biasRelu (V c main_v45) (V c main_v46) (((cfg1.win 2).blk t).view.emb j)
  refine (payload_apply (iblk1 V c 0 t) (iblk1 V c 1 t) j).trans ?_
  unfold Cert.Spec.biasRelu
  have h0 : iblk1 V c 0 t (ix2 (j 0) (j 1)) = V c main_v45 (((cfg1.win 2).blk t).view.emb j) := by
    show V c main_v45 (((cfg1.win 0).blk t).view.emb (ix2 (j 0) (j 1))) = _
    refine congrArg (V c main_v45) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 8 + 1 * (j 1).val = win1_2.index t (1 : Fin 2) * 8 + 1 * (j 1).val; omega
  have h1 : iblk1 V c 1 t (ix2 (0 : Fin 1) (j 1)) = V c main_v46 (ix2 0 ((((cfg1.win 2).blk t).view.emb j) 1)) := by
    show V c main_v46 (((cfg1.win 1).blk t).view.emb (ix2 (0 : Fin 1) (j 1))) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 8 + 1 * (j 1).val = win1_2.index t (1 : Fin 2) * 8 + 1 * (j 1).val; omega
  rw [h0, h1]

/-- An index of the output array lies in grid point t's tile iff each coordinate is in the tile's range on its axis. -/
theorem mem_blk (t : Fin cfg1.N) (i : S100000x8.Idx) :
    i ∈ ((cfg1.win 2).blk t).view.set ↔ ∀ a : Fin 2, win1_2.index t a * S5000x8.size a ≤ (i a).val ∧ (i a).val < win1_2.index t a * S5000x8.size a + S5000x8.size a := by
  show i ∈ ((View.whole main_v47).slice (win1_2.rect t)).set ↔ _
  rw [View.set_slice_whole, Rect.mem_set_unit]
  exact Iff.rfl

/-- Every index of the output array lies in some grid point's tile: row r is in tile r / 5000. -/
theorem covered (i : S100000x8.Idx) :
    ∃ t : Fin cfg1.N, (cfg1.win 2).flush t = true ∧ i ∈ ((cfg1.win 2).blk t).view.set := by
  have hi0 : (i 0).val < 100000 := (i 0).isLt
  have hi1 : (i 1).val < 8 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 8 ≤ (i 1).val ∧ (i 1).val < win1_2.index t (1 : Fin 2) * 8 + 8; omega

/-- The output array when the call returns: each aggregated row plus the bias row, clamped below at zero. -/
theorem value (c : Dev nD) :
    (dat1 V c).arrAt 2 cfg1.N = Cert.Spec.biasRelu (V c main_v45) (V c main_v46) :=
  (dat1 V c).arrAt_eq_of_cover 2 _ (fun t _ => flushed_eq V c t) covered

end Cert.KernelIdeal.Region1

end
-- ==== Proof.Region2.lean ====
/-
  Pallas call 2 (hidden features times the second weight matrix): what its output array holds when the call returns.
  The grid walks the 100000 rows in 20 tiles of 5000; at tile t the body loads rows [5000·t, 5000·(t+1)) of the left operand
  and the whole right operand, multiplies them into a zero accumulator and stores the 5000 × 40 product, which is written
  back to the same rows of the output. At the ideal values the change of float format before the product is the
  identity and the product into zero is the plain sum over the contracted axis, so tile t of the output is tile t of
  the full matrix product; the tiles cover every row, hence the whole array is the matrix product of the two
  operand arrays as the call finds them.
-/
import proofs.«109300_j36249523978477_1_alg».proof.Proof.Gen.KernelIdeal.Frame
import proofs.«109300_j36249523978477_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-! ## The product read at an index -/

theorem lhs_axis0 (i : S5000x40.Idx) (q : dot_S5000x8_S8x40_S5000x40_1_0_0_1_n_n.contr.Idx) :
    (dot_S5000x8_S8x40_S5000x40_1_0_0_1_n_n.lhsIdx i q 0).val = (i 0).val := by
  unfold DotDims.lhsIdx
  rw [dif_neg (show ¬(0 : Fin S5000x8.rank) ∈ dot_S5000x8_S8x40_S5000x40_1_0_0_1_n_n.lhsBatch by decide), dif_pos (show (0 : Fin S5000x8.rank) ∈ dot_S5000x8_S8x40_S5000x40_1_0_0_1_n_n.lhsNonContracting by decide)]
  rfl
theorem lhs_axis1 (i : S5000x40.Idx) (q : dot_S5000x8_S8x40_S5000x40_1_0_0_1_n_n.contr.Idx) :
    (dot_S5000x8_S8x40_S5000x40_1_0_0_1_n_n.lhsIdx i q 1).val = (q ⟨0, by decide⟩).val :=
  dot_S5000x8_S8x40_S5000x40_1_0_0_1_n_n.lhsIdx_val_of_single rfl i q
theorem rhs_axis0 (i : S5000x40.Idx) (q : dot_S5000x8_S8x40_S5000x40_1_0_0_1_n_n.contr.Idx) :
    (dot_S5000x8_S8x40_S5000x40_1_0_0_1_n_n.rhsIdx i q 0).val = (q ⟨0, by decide⟩).val :=
  dot_S5000x8_S8x40_S5000x40_1_0_0_1_n_n.rhsIdx_val_of_single rfl i q
theorem rhs_axis1 (i : S5000x40.Idx) (q : dot_S5000x8_S8x40_S5000x40_1_0_0_1_n_n.contr.Idx) :
    (dot_S5000x8_S8x40_S5000x40_1_0_0_1_n_n.rhsIdx i q 1).val = (i 1).val := by
  unfold DotDims.rhsIdx
  rw [dif_neg (show ¬(1 : Fin S8x40.rank) ∈ dot_S5000x8_S8x40_S5000x40_1_0_0_1_n_n.rhsBatch by decide), dif_pos (show (1 : Fin S8x40.rank) ∈ dot_S5000x8_S8x40_S5000x40_1_0_0_1_n_n.rhsNonContracting by decide)]
  rfl

/-- The body's stored value at row p, column q of the tile: the sum over the contracted axis of the loaded tile's row p
    times the loaded right operand's column q (the narrowing before the product is the identity at the ideal values). -/
theorem payload_apply (x0 : Vec Ideal S5000x8 .f32) (x1 : Vec Ideal S8x40 .f32) (j : S5000x40.Idx) :
    k2_pay1 x0 x1 j = ∑ k : Fin 8, x0 (ix2 (j 0) k) * x1 (ix2 k (j 1)) := by
  unfold k2_pay1
  simp only [matmul]
  rw [Ideal.matmul_constant_zero_apply, ← Equiv.sum_comp (contrEquiv1 dot_S5000x8_S8x40_S5000x40_1_0_0_1_n_n 8 rfl rfl).symm]
  refine Finset.sum_congr rfl fun k _ => ?_
  have hk := contrEquiv1_symm_val dot_S5000x8_S8x40_S5000x40_1_0_0_1_n_n 8 rfl rfl k
  have el : dot_S5000x8_S8x40_S5000x40_1_0_0_1_n_n.lhsIdx j ((contrEquiv1 dot_S5000x8_S8x40_S5000x40_1_0_0_1_n_n 8 rfl rfl).symm k) = ix2 (j 0) k := funext fun a => Fin.ext (by
    match a with
    | ⟨0, _⟩ => exact lhs_axis0 _ _
    | ⟨1, _⟩ => exact (lhs_axis1 _ _).trans hk)
  have er : dot_S5000x8_S8x40_S5000x40_1_0_0_1_n_n.rhsIdx j ((contrEquiv1 dot_S5000x8_S8x40_S5000x40_1_0_0_1_n_n 8 rfl rfl).symm k) = ix2 k (j 1) := funext fun a => Fin.ext (by
    match a with
    | ⟨0, _⟩ => exact (rhs_axis0 _ _).trans hk
    | ⟨1, _⟩ => exact rhs_axis1 _ _)
  rw [el, er, shapeCast_self]
  rfl

/-! ## From tiles to the array -/

/-- The printed index maps over the grid: the left operand's tile moves with the output's, the right operand stays. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row tile is some grid point's. -/
theorem index_onto : ∀ (q0 : Fin 20), ∃ t : Fin cfg2.N, win2_2.index t = ![q0.val, 0] :=
  (by decide +kernel : ∀ (q0 : Fin 20), ∃ t : Fin grid2.N, win2_2.index t = ![q0.val, 0])

/-- What grid point t writes back is tile t of the matrix product of the operand arrays. -/
theorem flushed_eq (c : Dev nD) (t : Fin cfg2.N) :
    (dat2 V c).flushed 2 t = ((cfg2.win 2).blk t).view.read (Elt Ideal) (Cert.Spec.mm2 (V c main_v47) (V c main_arg4)) := by
  show (cfg2.win 2).cut (grid2.coords t) ((dat2 V c).after 2 t) = _
  rw [after2_2]
  unfold out2_2
  rw [View.canon_unit_zero origin_zero]
  simp only [View.ld_unit_zero (S := S5000x8) origin_zero, View.ld_unit_zero (S := S8x40) origin_zero]
  obtain ⟨e0, e1, e2, e3, e4, e5⟩ := index_facts t
  funext j
  show k2_pay1 (iblk2 V c 0 t) (iblk2 V c 1 t) j = Cert.Spec.mm2 (V c main_v47) (V c main_arg4) (((cfg2.win 2).blk t).view.emb j)
  refine (payload_apply (iblk2 V c 0 t) (iblk2 V c 1 t) j).trans ?_
  unfold Cert.Spec.mm2
  refine Finset.sum_congr rfl fun k _ => ?_
  have h0 : iblk2 V c 0 t (ix2 (j 0) k) = V c main_v47 (ix2 ((((cfg2.win 2).blk t).view.emb j) 0) k) := by
    show V c main_v47 (((cfg2.win 0).blk t).view.emb (ix2 (j 0) k)) = _
    refine congrArg (V c main_v47) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 8 + 1 * k.val = k.val; omega
  have h1 : iblk2 V c 1 t (ix2 k (j 1)) = V c main_arg4 (ix2 k ((((cfg2.win 2).blk t).view.emb j) 1)) := by
    show V c main_arg4 (((cfg2.win 1).blk t).view.emb (ix2 k (j 1))) = _
    refine congrArg (V c main_arg4) (funext fun a => Fin.ext ?_)
    match a with
    | ⟨0, _⟩ => show win2_1.index t (0 : Fin 2) * 8 + 1 * k.val = k.val; omega
    | ⟨1, _⟩ => show win2_1.index t (1 : Fin 2) * 40 + 1 * (j 1).val = win2_2.index t (1 : Fin 2) * 40 + 1 * (j 1).val; omega
  rw [h0, h1]

/-- An index of the output array lies in grid point t's tile iff each coordinate is in the tile's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v48).slice (win2_2.rect t)).set ↔ _
  rw [View.set_slice_whole, Rect.mem_set_unit]
  exact Iff.rfl

/-- Every index of the output array lies in some grid point's tile: row r is in tile r / 5000. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The output array when the call returns: the matrix product of the two operand arrays as the call finds them. -/
theorem value (c : Dev nD) :
    (dat2 V c).arrAt 2 cfg2.N = Cert.Spec.mm2 (V c main_v47) (V c main_arg4) :=
  (dat2 V c).arrAt_eq_of_cover 2 _ (fun t _ => flushed_eq V c t) covered

end Cert.KernelIdeal.Region2

end
-- ==== Proof.Region3.lean ====
/-
  Pallas call 3 (bias, then row-wise log-softmax): what its two output arrays hold when the call returns.
  The grid walks the 100000 rows in 20 tiles of 5000; at tile t the body loads rows [5000·t, 5000·(t+1)) of the
  aggregated array and the one bias row, and adds the bias row to every row: the logits, stored to the second output.
  It then takes each row's maximum over its 40 columns, shifts the row by it, sums the exponentials of the shifted row
  and subtracts the logarithm of that sum: the log-probabilities, stored to the first output. A row's maximum and
  sum range over the row's own 40 columns and a tile holds whole rows, so row p of tile t is computed from row
  5000·t + p of the array alone; the tiles cover every row, hence each output array is one whole-array function of
  the two input arrays as the call finds them.
-/
import proofs.«109300_j36249523978477_1_alg».proof.Proof.Gen.KernelIdeal.Frame
import proofs.«109300_j36249523978477_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-! ## Layout and pointwise operations read at an index -/

/-- An `[a]` vector viewed as an `[a, 1]` column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential and the logarithm of a vector at an index: the extended reals'. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-! ## The two reductions along a row -/

/-- The maximum-reduction over the columns, read at row `p`: the fold of `max`, from the float negative infinity,
    over the row's 40 entries. -/
theorem rowMax_apply (L : FVec Ideal S5000x40 .f32) (h : S5000x40.Reduces [1] S5000) (hφ : FKind.Formats .f32)
    (hacc : (0xFF800000#32 : BitVec 32) = FKind.maximumf.neutral .f32 hφ) (p : Fin 5000) :
    multiReduction .maximumf [1] S5000 L 0xFF800000#32 h hφ hacc (ix1 p)
      = (Finset.univ : Finset (Fin 40)).fold max (Ideal.ofBits .f32 0xFF800000#32) (fun k => L (ix2 p k)) := by
  refine (Ideal.multiReduction_maximumf_single L _ h hφ hacc (ix1 p)).trans ?_
  have e : (L ∘ h.lift (ix1 p)) = fun k : Fin 40 => L (ix2 p k) := funext fun k => congrArg L (funext fun a => Fin.ext (by
    match a with
    | ⟨0, _⟩ => rfl
    | ⟨1, _⟩ => rfl))
  rw [e]
  rfl

/-- The sum-reduction over the columns, read at row `p`: the sum of the row's 40 entries. -/
theorem rowSum_apply (E : FVec Ideal S5000x40 .f32) (h : S5000x40.Reduces [1] S5000) (hφ : FKind.Formats .f32)
    (hacc : (0x00000000#32 : BitVec 32) = FKind.add.neutral .f32 hφ) (p : Fin 5000) :
    multiReduction .add [1] S5000 E 0x00000000#32 h hφ hacc (ix1 p) = ∑ k : Fin 40, E (ix2 p k) := by
  refine (Ideal.multiReduction_add_single E _ h hφ hacc (ix1 p)).trans ?_
  refine Finset.sum_congr rfl fun k _ => congrArg E (funext fun a => Fin.ext ?_)
  match a with
  | ⟨0, _⟩ => rfl
  | ⟨1, _⟩ => rfl

/-! ## The payloads read at an index -/

/-- The stored logits at row p, column q of the tile: the loaded tile's entry plus the bias row's entry at q. -/
theorem logits_apply (x0 : Vec Ideal S5000x40 .f32) (x1 : Vec Ideal S1x40 .f32) (p : Fin 5000) (q : Fin 40) :
    k3_pay1 x0 x1 (ix2 p q) = x0 (ix2 p q) + x1 (ix2 (0 : Fin 1) q) := by
  unfold k3_pay1
  rw [shapeCast_self, shapeCast_self]
  exact congrArg (fun z => x0 (ix2 p q) + z) (broadcastTo_1b_ab_apply x1 broadcasts_S1x40_S5000x40 p q)

/-- The stored log-probabilities at row p, column q of the tile, over the tile's logits: the logit shifted by its row's
    maximum, minus the logarithm of the sum of the exponentials of the row so shifted. -/
theorem logp_apply (x0 : Vec Ideal S5000x40 .f32) (x1 : Vec Ideal S1x40 .f32) (p : Fin 5000) (q : Fin 40) :
    k3_pay2 x0 x1 (ix2 p q)
      = (k3_pay1 x0 x1 (ix2 p q) - (Finset.univ : Finset (Fin 40)).fold max (Ideal.ofBits .f32 0xFF800000#32) (fun k => k3_pay1 x0 x1 (ix2 p k)))
        - Ideal.log (∑ k : Fin 40, Ideal.exp (k3_pay1 x0 x1 (ix2 p k)
            - (Finset.univ : Finset (Fin 40)).fold max (Ideal.ofBits .f32 0xFF800000#32) (fun k' => k3_pay1 x0 x1 (ix2 p k')))) := by
  unfold k3_pay2
  simp only []
  generalize k3_pay1 x0 x1 = L
  rw [subf_apply, subf_apply, broadcastTo_a1_ab_apply, broadcastTo_a1_ab_apply, log_apply,
    shapeCast_a_a1_apply, shapeCast_a_a1_apply]
  refine congrArg₂ (fun a b => L (ix2 p q) - a - Ideal.log b) ?_ ?_
  · exact rowMax_apply L _ _ _ p
  · refine (rowSum_apply _ _ _ _ p).trans ?_
    refine Finset.sum_congr rfl fun k _ => ?_
    rw [exp_apply, subf_apply, broadcastTo_a1_ab_apply, shapeCast_a_a1_apply]
    exact congrArg (fun a => Ideal.exp (L (ix2 p k) - a)) (rowMax_apply L _ _ _ p)

/-! ## From tiles to the arrays -/

/-- The printed index maps over the grid: the aggregated array's tile moves with both outputs', the bias row stays. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_3.index t (0 : Fin 2) = win3_2.index t (0 : Fin 2)
    ∧ win3_3.index t (1 : Fin 2) = 0
    ∧ win3_2.index t (0 : Fin 2) ≤ 19 :=
  (by decide +kernel : ∀ t : Fin grid3.N, _)

/-- Every row tile of either output is some grid point's. -/
theorem index_onto2 : ∀ (q0 : Fin 20), ∃ t : Fin cfg3.N, win3_2.index t = ![q0.val, 0] :=
  (by decide +kernel : ∀ (q0 : Fin 20), ∃ t : Fin grid3.N, win3_2.index t = ![q0.val, 0])
theorem index_onto3 : ∀ (q0 : Fin 20), ∃ t : Fin cfg3.N, win3_3.index t = ![q0.val, 0] :=
  (by decide +kernel : ∀ (q0 : Fin 20), ∃ t : Fin grid3.N, win3_3.index t = ![q0.val, 0])

/-- Row p of tile t with the bias row added, at column q, is the whole-array logit at the array index `i` that lies
    5000·t + p rows down and q columns in: the tile's rows are the array's rows [5000·t, 5000·(t+1)), all 40 columns,
    and the bias row is read whole at every tile. -/
theorem tile_logits (c : Dev nD) (t : Fin cfg3.N) (p : Fin 5000) (q : Fin 40) (i : S100000x40.Idx)
    (hi0 : (i 0).val = win3_0.index t (0 : Fin 2) * 5000 + p.val) (hi1 : (i 1).val = q.val) :
    k3_pay1 (iblk3 V c 0 t) (iblk3 V c 1 t) (ix2 p q) = Cert.Spec.logits (V c main_v60) (V c main_v61) i := by
  obtain ⟨e0, e1, e2, e3, e4, e5, e6, e7⟩ := index_facts t
  refine (logits_apply (iblk3 V c 0 t) (iblk3 V c 1 t) p q).trans ?_
  have h0 : iblk3 V c 0 t (ix2 p q) = V c main_v60 i := by
    show V c main_v60 (((cfg3.win 0).blk t).view.emb (ix2 p q)) = _
    refine congrArg (V c main_v60) (funext fun a => Fin.ext ?_)
    match a with
    | ⟨0, _⟩ => show win3_0.index t (0 : Fin 2) * 5000 + 1 * p.val = (i 0).val; omega
    | ⟨1, _⟩ => show win3_0.index t (1 : Fin 2) * 40 + 1 * q.val = (i 1).val; omega
  have h1 : iblk3 V c 1 t (ix2 (0 : Fin 1) q) = V c main_v61 (ix2 (0 : Fin 1) (i 1)) := by
    show V c main_v61 (((cfg3.win 1).blk t).view.emb (ix2 (0 : Fin 1) q)) = _
    refine congrArg (V c main_v61) (funext fun a => Fin.ext ?_)
    match a with
    | ⟨0, _⟩ => show win3_1.index t (0 : Fin 2) * 1 + 1 * 0 = 0; omega
    | ⟨1, _⟩ => show win3_1.index t (1 : Fin 2) * 40 + 1 * q.val = (i 1).val; omega
  exact congrArg₂ (fun a b : EReal => a + b) h0 h1

/-- What grid point t writes back to the second output is tile t of the whole-array logits. -/
theorem flushed_logits_eq (c : Dev nD) (t : Fin cfg3.N) :
    (dat3 V c).flushed 3 t = ((cfg3.win 3).blk t).view.read (Elt Ideal) (Cert.Spec.logits (V c main_v60) (V c main_v61)) := by
  show (cfg3.win 3).cut (grid3.coords t) ((dat3 V c).after 3 t) = _
  rw [after3_3]
  unfold out3_3
  rw [View.canon_unit_zero origin_zero]
  simp only [View.ld_unit_zero (S := S5000x40) origin_zero, View.ld_unit_zero (S := S1x40) origin_zero]
  obtain ⟨e0, e1, e2, e3, e4, e5, e6, e7⟩ := index_facts t
  funext j
  show k3_pay1 (iblk3 V c 0 t) (iblk3 V c 1 t) j = Cert.Spec.logits (V c main_v60) (V c main_v61) (((cfg3.win 3).blk t).view.emb j)
  refine (congrArg (k3_pay1 (iblk3 V c 0 t) (iblk3 V c 1 t)) (eq_ix2 j)).trans ?_
  refine tile_logits V c t (j 0) (j 1) (((cfg3.win 3).blk t).view.emb j) ?_ ?_
  · show win3_3.index t (0 : Fin 2) * 5000 + 1 * (j 0).val = win3_0.index t (0 : Fin 2) * 5000 + (j 0).val; omega
  · show win3_3.index t (1 : Fin 2) * 40 + 1 * (j 1).val = (j 1).val; omega

/-- What grid point t writes back to the first output is tile t of the row-wise log-softmax of the whole-array logits:
    the row's maximum and its sum of exponentials range over the tile's row, which is the array's row. -/
theorem flushed_logp_eq (c : Dev nD) (t : Fin cfg3.N) :
    (dat3 V c).flushed 2 t = ((cfg3.win 2).blk t).view.read (Elt Ideal) (Cert.Spec.logSoftmax (Cert.Spec.logits (V c main_v60) (V c main_v61))) := by
  show (cfg3.win 2).cut (grid3.coords t) ((dat3 V c).after 2 t) = _
  rw [after3_2]
  unfold out3_2
  rw [View.canon_unit_zero origin_zero]
  simp only [View.ld_unit_zero (S := S5000x40) origin_zero, View.ld_unit_zero (S := S1x40) origin_zero]
  obtain ⟨e0, e1, e2, e3, e4, e5, e6, e7⟩ := index_facts t
  funext j
  show k3_pay2 (iblk3 V c 0 t) (iblk3 V c 1 t) j
    = Cert.Spec.logSoftmax (Cert.Spec.logits (V c main_v60) (V c main_v61)) (((cfg3.win 2).blk t).view.emb j)
  refine (congrArg (k3_pay2 (iblk3 V c 0 t) (iblk3 V c 1 t)) (eq_ix2 j)).trans ?_
  refine (logp_apply (iblk3 V c 0 t) (iblk3 V c 1 t) (j 0) (j 1)).trans ?_
  have hcell : k3_pay1 (iblk3 V c 0 t) (iblk3 V c 1 t) (ix2 (j 0) (j 1))
      = Cert.Spec.logits (V c main_v60) (V c main_v61) (((cfg3.win 2).blk t).view.emb j) :=
    tile_logits V c t (j 0) (j 1) (((cfg3.win 2).blk t).view.emb j)
      (by show win3_2.index t (0 : Fin 2) * 5000 + 1 * (j 0).val = win3_0.index t (0 : Fin 2) * 5000 + (j 0).val; omega)
      (by show win3_2.index t (1 : Fin 2) * 40 + 1 * (j 1).val = (j 1).val; omega)
  have hrow : ∀ k : Fin 40, k3_pay1 (iblk3 V c 0 t) (iblk3 V c 1 t) (ix2 (j 0) k)
      = Cert.Spec.logits (V c main_v60) (V c main_v61) (ix2 ((((cfg3.win 2).blk t).view.emb j) 0) k) := fun k =>
    tile_logits V c t (j 0) k (ix2 ((((cfg3.win 2).blk t).view.emb j) 0) k)
      (by show win3_2.index t (0 : Fin 2) * 5000 + 1 * (j 0).val = win3_0.index t (0 : Fin 2) * 5000 + (j 0).val; omega)
      rfl
  rw [hcell]
  simp only [hrow]
  rfl

/-- An index of an output array lies in grid point t's tile iff each coordinate is in the tile's range on its axis. -/
theorem mem_blk2 (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v62_0).slice (win3_2.rect t)).set ↔ _
  rw [View.set_slice_whole, Rect.mem_set_unit]
  exact Iff.rfl
theorem mem_blk3 (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v62_1).slice (win3_3.rect t)).set ↔ _
  rw [View.set_slice_whole, Rect.mem_set_unit]
  exact Iff.rfl

/-- Every index of an output array lies in some grid point's tile: row r is in tile r / 5000. -/
theorem covered2 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := index_onto2 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega
theorem covered3 (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  obtain ⟨t, ht⟩ := index_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 40 ≤ (i 1).val ∧ (i 1).val < win3_3.index t (1 : Fin 2) * 40 + 40; omega

/-! ## The two output arrays when the call returns -/

/-- The second output (the logits): each aggregated row plus the bias row. -/
theorem value_logits (c : Dev nD) :
    (dat3 V c).arrAt 3 cfg3.N = Cert.Spec.logits (V c main_v60) (V c main_v61) :=
  (dat3 V c).arrAt_eq_of_cover 3 _ (fun t _ => flushed_logits_eq V c t) covered3

/-- The first output: the row-wise log-softmax of the logits. -/
theorem value_logp (c : Dev nD) :
    (dat3 V c).arrAt 2 cfg3.N = Cert.Spec.logSoftmax (Cert.Spec.logits (V c main_v60) (V c main_v61)) :=
  (dat3 V c).arrAt_eq_of_cover 2 _ (fun t _ => flushed_logp_eq V c t) covered2

end Cert.KernelIdeal.Region3

end
-- ==== Proof.RefSpec.lean ====
/-
  The reference program's dense stages read as the specification's functions. The reference computes, between its
  gather / scale / scatter-add steps, a matrix product, a bias row added to every node followed by a clamp at zero, a second
  matrix product, a bias row added to every node, and a row-wise log-softmax; each is the corresponding function of
  the specification, index by index.
-/
import proofs.«109300_j36249523978477_1_alg».proof.Proof.RefRead
import proofs.«109300_j36249523978477_1_alg».proof.Proof.Spec
import Idealize.ShloMosaic.Lib.ValueIdx
import Idealize.ShloMosaic.PureOps.Reduce
import Idealize.ShloMosaic.PureOps.Ideal.Laws
import Mathlib.Data.Finset.Fold

noncomputable section

namespace Cert.ReferenceIdeal.RefSpec

open Cert.ReferenceIdeal Cert.ReferenceIdeal.Gen Cert.ReferenceIdeal.Read Idealize.ShloMosaic Idealize.ShloMosaic.TcCoe Idealize.ShloMosaic.ValueIdx

variable (x0 : (⟨S100000x512, .f32⟩ : BufTy).Contents (Elt Ideal)) (x1 : (⟨S2x3200000, .i32⟩ : BufTy).Contents (Elt Ideal))
  (x2 : (⟨S512x8, .f32⟩ : BufTy).Contents (Elt Ideal)) (x3 : (⟨S8, .f32⟩ : BufTy).Contents (Elt Ideal))
  (x4 : (⟨S8x40, .f32⟩ : BufTy).Contents (Elt Ideal)) (x5 : (⟨S40, .f32⟩ : BufTy).Contents (Elt Ideal))

/-! ### The index functions of the two matrix products are the coordinates

Entry (r, q) of a product reads the left operand at (r, k) and the right operand at (k, q). -/

theorem lidx_v32_eq (i : S100000x8.Idx) (k : Fin 512) : lidx_main_v32 i k = ix2 (i 0) k :=
  funext fun a => Fin.ext (by match a with | ⟨0, _⟩ => rfl | ⟨1, _⟩ => rfl)

theorem ridx_v32_eq (i : S100000x8.Idx) (k : Fin 512) : ridx_main_v32 i k = ix2 k (i 1) :=
  funext fun a => Fin.ext (by match a with | ⟨0, _⟩ => rfl | ⟨1, _⟩ => rfl)

theorem lidx_v78_eq (i : S100000x40.Idx) (k : Fin 8) : lidx_main_v78 i k = ix2 (i 0) k :=
  funext fun a => Fin.ext (by match a with | ⟨0, _⟩ => rfl | ⟨1, _⟩ => rfl)

theorem ridx_v78_eq (i : S100000x40.Idx) (k : Fin 8) : ridx_main_v78 i k = ix2 k (i 1) :=
  funext fun a => Fin.ext (by match a with | ⟨0, _⟩ => rfl | ⟨1, _⟩ => rfl)

/-- The first linear layer is the matrix product. -/
theorem mm1_eq : val_main_v32 (F := Ideal) x0 x2 = Cert.Spec.mm1 x0 x2 := by
  funext i
  rw [val_main_v32_apply]
  show ∑ k : Fin 512, x0 (lidx_main_v32 i k) * x2 (ridx_main_v32 i k) = ∑ k : Fin 512, x0 (ix2 (i 0) k) * x2 (ix2 k (i 1))
  refine Finset.sum_congr rfl fun k _ => ?_
  rw [lidx_v32_eq, ridx_v32_eq]
  rfl

/-- The first layer's activation: the aggregate plus the bias row (any 1 × 8 row holding the bias), clamped at zero. -/
theorem biasRelu_eq (b : (⟨2, ![1, 8]⟩ : Shape).Idx → EReal) (hb : ∀ q : Fin 8, b (ix2 0 q) = x3 (ix1 q)) :
    val_main_v49 (F := Ideal) x0 x1 x2 x3 = Cert.Spec.biasRelu (val_main_v45 (F := Ideal) x0 x1 x2) b := by
  funext i
  -- the bias is broadcast twice (to one row, then to every row); the zero is a broadcast constant
  rw [val_main_v49_apply, val_main_v48_apply, val_main_v47_apply, val_main_v46_apply, val_main_call1_v0_apply,
    val_main_call1_cst_apply]
  show max (val_main_v45 (F := Ideal) x0 x1 x2 i + x3 (idx_main_v46 (idx_main_v47 i))) (Ideal.ofBits .f32 0x00000000#32)
    = max (val_main_v45 (F := Ideal) x0 x1 x2 i + b (ix2 0 (i 1))) (Ideal.ofBits .f32 0x00000000#32)
  rw [hb (i 1)]
  exact congrArg (fun t => max (val_main_v45 (F := Ideal) x0 x1 x2 i + x3 t) (Ideal.ofBits .f32 0x00000000#32))
    (funext fun a => Fin.ext (by match a with | ⟨0, _⟩ => rfl))

/-- The second linear layer is the matrix product of the activation. -/
theorem mm2_eq : val_main_v78 (F := Ideal) x0 x1 x2 x3 x4 = Cert.Spec.mm2 (val_main_v49 (F := Ideal) x0 x1 x2 x3) x4 := by
  funext i
  rw [val_main_v78_apply]
  show ∑ k : Fin 8, val_main_v49 (F := Ideal) x0 x1 x2 x3 (lidx_main_v78 i k) * x4 (ridx_main_v78 i k)
    = ∑ k : Fin 8, val_main_v49 (F := Ideal) x0 x1 x2 x3 (ix2 (i 0) k) * x4 (ix2 k (i 1))
  refine Finset.sum_congr rfl fun k _ => ?_
  rw [lidx_v78_eq, ridx_v78_eq]
  rfl

/-- The logits: the second aggregate plus the bias row (any 1 × 40 row holding the bias). -/
theorem logits_eq (b : (⟨2, ![1, 40]⟩ : Shape).Idx → EReal) (hb : ∀ q : Fin 40, b (ix2 0 q) = x5 (ix1 q)) :
    val_main_v94 (F := Ideal) x0 x1 x2 x3 x4 x5 = Cert.Spec.logits (val_main_v91 (F := Ideal) x0 x1 x2 x3 x4) b := by
  funext i
  rw [val_main_v94_apply, val_main_v93_apply, val_main_v92_apply]
  show val_main_v91 (F := Ideal) x0 x1 x2 x3 x4 i + x5 (idx_main_v92 (idx_main_v93 i))
    = val_main_v91 (F := Ideal) x0 x1 x2 x3 x4 i + b (ix2 0 (i 1))
  rw [hb (i 1)]
  exact congrArg (fun t => val_main_v91 (F := Ideal) x0 x1 x2 x3 x4 i + x5 t)
    (funext fun a => Fin.ext (by match a with | ⟨0, _⟩ => rfl))

/-! ### The log-softmax, stage by stage

With l the logits: the row maximum m(r) is the fold of max over the row from the float negative infinity (the reference
takes one more maximum with the float negative infinity, which changes nothing: a fold of max from a is at least a);
the shifted logits are l(r, q) - m(r); the result is the shifted logit minus the logarithm of the row's sum of the
exponentials of the shifted logits (the sum starts from the float zero, which is 0). -/

/-- For any array l of logits: the max-reduce of l over the columns, from the float negative infinity, is the row maximum of l. -/
theorem reduceMax_fold (l : S100000x40.Idx → EReal) (r : S100000.Idx) :
    Host.reduce (FloatOps.maximumf : Ideal .f32 → Ideal .f32 → Ideal .f32) l (val_main_call3_cst (F := Ideal))
        reducesTo_S100000x40_S100000_d1 h_S_ r
      = Cert.Spec.rowMax l (r 0) := by
  refine (Host.reduce_eq_fold_single (max : EReal → EReal → EReal) l (val_main_call3_cst (F := Ideal))
    reducesTo_S100000x40_S100000_d1 (by decide) h_S_ r).trans ?_
  unfold Cert.Spec.rowMax
  rw [val_main_call3_cst_apply, Ideal.ofBits_def]
  refine Finset.fold_congr fun q _ => ?_
  exact congrArg l (funext fun a => Fin.ext (by match a with | ⟨0, _⟩ => rfl | ⟨1, _⟩ => rfl))

/-- The reference's max-reduce of the logits over the columns, from the float negative infinity, is the row maximum. -/
theorem reduceMax_read (r : S100000.Idx) :
    val_main_call3_v0 (F := Ideal) x0 x1 x2 x3 x4 x5 r
      = Cert.Spec.rowMax (val_main_v94 (F := Ideal) x0 x1 x2 x3 x4 x5) (r 0) :=
  reduceMax_fold (val_main_v94 (F := Ideal) x0 x1 x2 x3 x4 x5) r

/-- A fold of max from a is unchanged by one more maximum with a. -/
theorem max_fold_max_self {ι : Type} (s : Finset ι) (a : EReal) (f : ι → EReal) :
    max a (s.fold max a f) = s.fold max a f :=
  max_eq_right ((Finset.le_fold_max a).2 (Or.inl le_rfl))

/-- For any l: one more maximum of the row maximum with the float negative infinity changes nothing. -/
theorem max_rowMax (l : S100000x40.Idx → EReal) (r : Fin 100000) :
    FloatOps.maximumf (F := Ideal) (FloatOps.ofBits .f32 0xFF800000#32) (Cert.Spec.rowMax l r) = Cert.Spec.rowMax l r :=
  max_fold_max_self _ _ _

/-- The row maximum the reference subtracts at (r, q), broadcast along the row, is the specification's m(r). -/
theorem rowMax_read (i : S100000x40.Idx) :
    val_main_call3_v4 (F := Ideal) x0 x1 x2 x3 x4 x5 i
      = Cert.Spec.rowMax (val_main_v94 (F := Ideal) x0 x1 x2 x3 x4 x5) (i 0) := by
  rw [val_main_call3_v4_apply, val_main_call3_v3_apply, val_main_call3_v2_apply, val_main_call3_v1_apply,
    val_main_call3_cst_0_apply, reduceMax_read]
  -- the row of the broadcast index is the row of i
  have e : (idx_main_call3_v3 (idx_main_call3_v4 i)) 0 = i 0 := rfl
  rw [e]
  exact max_rowMax (val_main_v94 (F := Ideal) x0 x1 x2 x3 x4 x5) (i 0)

/-- The shifted logits. -/
theorem shifted_read (i : S100000x40.Idx) :
    val_main_call3_v5 (F := Ideal) x0 x1 x2 x3 x4 x5 i
      = val_main_v94 (F := Ideal) x0 x1 x2 x3 x4 x5 i
        - Cert.Spec.rowMax (val_main_v94 (F := Ideal) x0 x1 x2 x3 x4 x5) (i 0) := by
  rw [val_main_call3_v5_apply, rowMax_read]
  exact Ideal.subf_def _ _

/-- For any l: the exponential of the shifted logit at an index j that is (r, q), written through r and q. -/
theorem exp_shift_at (l : S100000x40.Idx → EReal) (r : Fin 100000) (q : Fin 40) (j : S100000x40.Idx) (hj : j = ix2 r q) :
    Ideal.exp (l j - Cert.Spec.rowMax l (j 0)) = Ideal.exp (l (ix2 r q) - Cert.Spec.rowMax l r) := by
  subst hj
  rfl

/-- The logarithm of the row's sum of exponentials, broadcast along the row. -/
theorem logSumExp_read (i : S100000x40.Idx) :
    val_main_call3_v10 (F := Ideal) x0 x1 x2 x3 x4 x5 i
      = Ideal.log (∑ q : Fin 40, Ideal.exp (val_main_v94 (F := Ideal) x0 x1 x2 x3 x4 x5 (ix2 (i 0) q)
          - Cert.Spec.rowMax (val_main_v94 (F := Ideal) x0 x1 x2 x3 x4 x5) (i 0))) := by
  rw [val_main_call3_v10_apply, val_main_call3_v9_apply, val_main_call3_v8_apply, val_main_call3_v7_apply,
    val_main_call3_cst_1_apply, Ideal.ofBits_def, Ideal.ofBits_zero_f32, zero_add, Ideal.hostUnary_log_def]
  refine congrArg Ideal.log (Finset.sum_congr rfl fun q _ => ?_)
  rw [val_main_call3_v6_apply, Ideal.hostUnary_exp_def, shifted_read]
  exact exp_shift_at (val_main_v94 (F := Ideal) x0 x1 x2 x3 x4 x5) (i 0) q _
    (funext fun a => Fin.ext (by match a with | ⟨0, _⟩ => rfl | ⟨1, _⟩ => rfl))

/-- For any l: the shifted logit minus the logarithm of the row's sum of exponentials is the log-softmax of l. -/
theorem logSoftmax_of (l : S100000x40.Idx → EReal) (i : S100000x40.Idx) :
    FloatOps.subf (F := Ideal) (φ := .f32) (l i - Cert.Spec.rowMax l (i 0))
        (Ideal.log (∑ q : Fin 40, Ideal.exp (l (ix2 (i 0) q) - Cert.Spec.rowMax l (i 0))))
      = Cert.Spec.logSoftmax l i := rfl

/-- The first result is the row-wise log-softmax of the logits. -/
theorem logSoftmax_eq :
    val_main_v95 (F := Ideal) x0 x1 x2 x3 x4 x5 = Cert.Spec.logSoftmax (val_main_v94 (F := Ideal) x0 x1 x2 x3 x4 x5) := by
  funext i
  rw [val_main_v95_apply, shifted_read, logSumExp_read]
  exact logSoftmax_of (val_main_v94 (F := Ideal) x0 x1 x2 x3 x4 x5) i

end Cert.ReferenceIdeal.RefSpec

end
-- ==== Proof.Chain.lean ====
/-
  The idealized kernel's two result arrays as functions of its six argument arrays.
  The program is a line of host operations with four Pallas calls in it. Walking the line from the launch, the contents
  of every buffer a later step reads are identified, one step at a time, with the stage of the reference program that
  computes the same array: the edge endpoints with self loops appended and the symmetric normalisation (host
  operations both programs spell identically), the first matrix product (Pallas call 0), the first gather / scale /
  scatter-add (host operations again), bias and clamp (call 1), the second matrix product (call 2), the second gather /
  scale / scatter-add, and the biased logits with their row-wise log-softmax (call 3).
-/
import proofs.«109300_j36249523978477_1_alg».proof.Proof.Gen.KernelIdeal.Frame
import proofs.«109300_j36249523978477_1_alg».proof.Proof.Region0
import proofs.«109300_j36249523978477_1_alg».proof.Proof.Region1
import proofs.«109300_j36249523978477_1_alg».proof.Proof.Region2
import proofs.«109300_j36249523978477_1_alg».proof.Proof.Region3
import proofs.«109300_j36249523978477_1_alg».proof.Proof.RefRead
import proofs.«109300_j36249523978477_1_alg».proof.Proof.RefSpec
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable {F : FTy → Type} [FloatOps F]
variable (m : (ℓ : Loc nD τ sig) → Buf (Elt F) ℓ) (ρ : Dev nD → PrngReg)

/-- The six argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-! ## The host stretches, each over an arbitrary entry valuation: what it computes from what it reads, and what it leaves -/

set_option maxHeartbeats 4000000 in
/-- The source endpoints with the self loops appended. -/
theorem h0_src (Wv : Valuation τ sig (Elt F)) (x1 : (⟨S2x3200000, .i32⟩ : BufTy).Contents (Elt F))
    (h : Wv (Proc.devRef .tc main_arg1) = x1) :
    StableHlo.after hostOps0 Wv (Proc.devRef .tc main_v5) = val_main_v5 (F := F) x1 := by
  after_results
  rw [h]
  (try simp only [TRef.ofBuf, TRef.toBuf, cast_eq]) <;> rfl
set_option maxHeartbeats 4000000 in
/-- The target endpoints with the self loops appended. -/
theorem h0_dst (Wv : Valuation τ sig (Elt F)) (x1 : (⟨S2x3200000, .i32⟩ : BufTy).Contents (Elt F))
    (h : Wv (Proc.devRef .tc main_arg1) = x1) :
    StableHlo.after hostOps0 Wv (Proc.devRef .tc main_v6) = val_main_v6 (F := F) x1 := by
  after_results
  rw [h]
  (try simp only [TRef.ofBuf, TRef.toBuf, cast_eq]) <;> rfl
set_option maxHeartbeats 4000000 in
/-- Which nodes have a positive in-degree. -/
theorem h0_pos (Wv : Valuation τ sig (Elt F)) (x1 : (⟨S2x3200000, .i32⟩ : BufTy).Contents (Elt F))
    (h : Wv (Proc.devRef .tc main_arg1) = x1) :
    StableHlo.after hostOps0 Wv (Proc.devRef .tc main_v12) = val_main_v12 (F := F) x1 := by
  after_results
  rw [h]
  (try simp only [TRef.ofBuf, TRef.toBuf, cast_eq]) <;> rfl
set_option maxHeartbeats 4000000 in
/-- The reciprocal square root of the clamped in-degree. -/
theorem h0_rsqrt (Wv : Valuation τ sig (Elt F)) (x1 : (⟨S2x3200000, .i32⟩ : BufTy).Contents (Elt F))
    (h : Wv (Proc.devRef .tc main_arg1) = x1) :
    StableHlo.after hostOps0 Wv (Proc.devRef .tc main_v15) = val_main_v15 (F := F) x1 := by
  after_results
  rw [h]
  (try simp only [TRef.ofBuf, TRef.toBuf, cast_eq]) <;> rfl
set_option maxHeartbeats 4000000 in
theorem h0_zero (Wv : Valuation τ sig (Elt F))
     :
    StableHlo.after hostOps0 Wv (Proc.devRef .tc main_cst_3) = val_main_cst_3 (F := F) := by
  after_results
  (try simp only [TRef.ofBuf, TRef.toBuf, cast_eq]) <;> rfl
theorem h0_keep_arg0 (Wv : Valuation τ sig (Elt F)) :
    StableHlo.after hostOps0 Wv (Proc.devRef .tc main_arg0) = Wv (Proc.devRef .tc main_arg0) := by
  after_results_simp
theorem h0_keep_arg2 (Wv : Valuation τ sig (Elt F)) :
    StableHlo.after hostOps0 Wv (Proc.devRef .tc main_arg2) = Wv (Proc.devRef .tc main_arg2) := by
  after_results_simp
theorem h0_keep_arg3 (Wv : Valuation τ sig (Elt F)) :
    StableHlo.after hostOps0 Wv (Proc.devRef .tc main_arg3) = Wv (Proc.devRef .tc main_arg3) := by
  after_results_simp
theorem h0_keep_arg4 (Wv : Valuation τ sig (Elt F)) :
    StableHlo.after hostOps0 Wv (Proc.devRef .tc main_arg4) = Wv (Proc.devRef .tc main_arg4) := by
  after_results_simp
theorem h0_keep_arg5 (Wv : Valuation τ sig (Elt F)) :
    StableHlo.after hostOps0 Wv (Proc.devRef .tc main_arg5) = Wv (Proc.devRef .tc main_arg5) := by
  after_results_simp
set_option maxHeartbeats 4000000 in
/-- The degree-based factor, zero where a node has no incoming edge. -/
theorem h01_factor (Wv : Valuation τ sig (Elt F)) (x1 : (⟨S2x3200000, .i32⟩ : BufTy).Contents (Elt F))
    (h12 : Wv (Proc.devRef .tc main_v12) = val_main_v12 (F := F) x1)
    (h15 : Wv (Proc.devRef .tc main_v15) = val_main_v15 (F := F) x1)
    (hz : Wv (Proc.devRef .tc main_cst_3) = val_main_cst_3 (F := F)) :
    StableHlo.after hostOps0_1 Wv (Proc.devRef .tc main_v16) = val_main_v16 (F := F) x1 := by
  after_results
  rw [h12, h15, hz]
  (try simp only [TRef.ofBuf, TRef.toBuf, cast_eq]) <;> rfl
theorem h01_keep_v5 (Wv : Valuation τ sig (Elt F)) :
    StableHlo.after hostOps0_1 Wv (Proc.devRef .tc main_v5) = Wv (Proc.devRef .tc main_v5) := by
  after_results_simp
theorem h01_keep_v6 (Wv : Valuation τ sig (Elt F)) :
    StableHlo.after hostOps0_1 Wv (Proc.devRef .tc main_v6) = Wv (Proc.devRef .tc main_v6) := by
  after_results_simp
theorem h01_keep_arg0 (Wv : Valuation τ sig (Elt F)) :
    StableHlo.after hostOps0_1 Wv (Proc.devRef .tc main_arg0) = Wv (Proc.devRef .tc main_arg0) := by
  after_results_simp
theorem h01_keep_arg2 (Wv : Valuation τ sig (Elt F)) :
    StableHlo.after hostOps0_1 Wv (Proc.devRef .tc main_arg2) = Wv (Proc.devRef .tc main_arg2) := by
  after_results_simp
theorem h01_keep_arg3 (Wv : Valuation τ sig (Elt F)) :
    StableHlo.after hostOps0_1 Wv (Proc.devRef .tc main_arg3) = Wv (Proc.devRef .tc main_arg3) := by
  after_results_simp
theorem h01_keep_arg4 (Wv : Valuation τ sig (Elt F)) :
    StableHlo.after hostOps0_1 Wv (Proc.devRef .tc main_arg4) = Wv (Proc.devRef .tc main_arg4) := by
  after_results_simp
theorem h01_keep_arg5 (Wv : Valuation τ sig (Elt F)) :
    StableHlo.after hostOps0_1 Wv (Proc.devRef .tc main_arg5) = Wv (Proc.devRef .tc main_arg5) := by
  after_results_simp
set_option maxHeartbeats 4000000 in
/-- The per-edge normalisation, as a column. -/
theorem h02_norm (Wv : Valuation τ sig (Elt F)) (x1 : (⟨S2x3200000, .i32⟩ : BufTy).Contents (Elt F))
    (h16 : Wv (Proc.devRef .tc main_v16) = val_main_v16 (F := F) x1)
    (h5 : Wv (Proc.devRef .tc main_v5) = val_main_v5 (F := F) x1)
    (h6 : Wv (Proc.devRef .tc main_v6) = val_main_v6 (F := F) x1) :
    StableHlo.after hostOps0_2 Wv (Proc.devRef .tc main_v32) = val_main_v40 (F := F) x1 := by
  after_results_simp
  rw [h16, h5, h6]
  (try simp only [TRef.ofBuf, TRef.toBuf, cast_eq]) <;> rfl
theorem h02_keep_v5 (Wv : Valuation τ sig (Elt F)) :
    StableHlo.after hostOps0_2 Wv (Proc.devRef .tc main_v5) = Wv (Proc.devRef .tc main_v5) := by
  after_results_simp
theorem h02_keep_v6 (Wv : Valuation τ sig (Elt F)) :
    StableHlo.after hostOps0_2 Wv (Proc.devRef .tc main_v6) = Wv (Proc.devRef .tc main_v6) := by
  after_results_simp
theorem h02_keep_arg0 (Wv : Valuation τ sig (Elt F)) :
    StableHlo.after hostOps0_2 Wv (Proc.devRef .tc main_arg0) = Wv (Proc.devRef .tc main_arg0) := by
  after_results_simp
theorem h02_keep_arg2 (Wv : Valuation τ sig (Elt F)) :
    StableHlo.after hostOps0_2 Wv (Proc.devRef .tc main_arg2) = Wv (Proc.devRef .tc main_arg2) := by
  after_results_simp
theorem h02_keep_arg3 (Wv : Valuation τ sig (Elt F)) :
    StableHlo.after hostOps0_2 Wv (Proc.devRef .tc main_arg3) = Wv (Proc.devRef .tc main_arg3) := by
  after_results_simp
theorem h02_keep_arg4 (Wv : Valuation τ sig (Elt F)) :
    StableHlo.after hostOps0_2 Wv (Proc.devRef .tc main_arg4) = Wv (Proc.devRef .tc main_arg4) := by
  after_results_simp
theorem h02_keep_arg5 (Wv : Valuation τ sig (Elt F)) :
    StableHlo.after hostOps0_2 Wv (Proc.devRef .tc main_arg5) = Wv (Proc.devRef .tc main_arg5) := by
  after_results_simp
set_option maxHeartbeats 4000000 in
/-- The first aggregation: gather the product's rows by source, scale by the normalisation, add into the targets. -/
theorem h1_agg (Wv : Valuation τ sig (Elt F)) (x0 : (⟨S100000x512, .f32⟩ : BufTy).Contents (Elt F)) (x1 : (⟨S2x3200000, .i32⟩ : BufTy).Contents (Elt F)) (x2 : (⟨S512x8, .f32⟩ : BufTy).Contents (Elt F))
    (h33 : Wv (Proc.devRef .tc main_v33) = val_main_v32 (F := F) x0 x2)
    (h5 : Wv (Proc.devRef .tc main_v5) = val_main_v5 (F := F) x1)
    (h6 : Wv (Proc.devRef .tc main_v6) = val_main_v6 (F := F) x1)
    (h32 : Wv (Proc.devRef .tc main_v32) = val_main_v40 (F := F) x1) :
    StableHlo.after hostOps1 Wv (Proc.devRef .tc main_v45) = val_main_v45 (F := F) x0 x1 x2 := by
  after_results_simp
  rw [h33, h5, h6, h32]
  (try simp only [TRef.ofBuf, TRef.toBuf, cast_eq]) <;> rfl
set_option maxHeartbeats 4000000 in
/-- The first bias as a row. -/
theorem h1_bias (Wv : Valuation τ sig (Elt F)) (x3 : (⟨S8, .f32⟩ : BufTy).Contents (Elt F))
    (h : Wv (Proc.devRef .tc main_arg3) = x3) :
    StableHlo.after hostOps1 Wv (Proc.devRef .tc main_v46) = shapeCast S1x8 x3 shapeCasts_S8_S1x8 := by
  after_results_simp
  rw [h]
  (try simp only [TRef.ofBuf, TRef.toBuf, cast_eq]) <;> rfl
theorem h1_keep_v5 (Wv : Valuation τ sig (Elt F)) :
    StableHlo.after hostOps1 Wv (Proc.devRef .tc main_v5) = Wv (Proc.devRef .tc main_v5) := by
  after_results_simp
theorem h1_keep_v6 (Wv : Valuation τ sig (Elt F)) :
    StableHlo.after hostOps1 Wv (Proc.devRef .tc main_v6) = Wv (Proc.devRef .tc main_v6) := by
  after_results_simp
theorem h1_keep_v32 (Wv : Valuation τ sig (Elt F)) :
    StableHlo.after hostOps1 Wv (Proc.devRef .tc main_v32) = Wv (Proc.devRef .tc main_v32) := by
  after_results_simp
theorem h1_keep_arg4 (Wv : Valuation τ sig (Elt F)) :
    StableHlo.after hostOps1 Wv (Proc.devRef .tc main_arg4) = Wv (Proc.devRef .tc main_arg4) := by
  after_results_simp
theorem h1_keep_arg5 (Wv : Valuation τ sig (Elt F)) :
    StableHlo.after hostOps1 Wv (Proc.devRef .tc main_arg5) = Wv (Proc.devRef .tc main_arg5) := by
  after_results_simp
set_option maxHeartbeats 4000000 in
/-- The second aggregation. -/
theorem h3_agg (Wv : Valuation τ sig (Elt F)) (x0 : (⟨S100000x512, .f32⟩ : BufTy).Contents (Elt F)) (x1 : (⟨S2x3200000, .i32⟩ : BufTy).Contents (Elt F)) (x2 : (⟨S512x8, .f32⟩ : BufTy).Contents (Elt F)) (x3 : (⟨S8, .f32⟩ : BufTy).Contents (Elt F)) (x4 : (⟨S8x40, .f32⟩ : BufTy).Contents (Elt F))
    (h48 : Wv (Proc.devRef .tc main_v48) = val_main_v78 (F := F) x0 x1 x2 x3 x4)
    (h5 : Wv (Proc.devRef .tc main_v5) = val_main_v5 (F := F) x1)
    (h6 : Wv (Proc.devRef .tc main_v6) = val_main_v6 (F := F) x1)
    (h32 : Wv (Proc.devRef .tc main_v32) = val_main_v40 (F := F) x1) :
    StableHlo.after hostOps3 Wv (Proc.devRef .tc main_v60) = val_main_v91 (F := F) x0 x1 x2 x3 x4 := by
  after_results_simp
  rw [h48, h5, h6, h32]
  (try simp only [TRef.ofBuf, TRef.toBuf, cast_eq]) <;> rfl
set_option maxHeartbeats 4000000 in
/-- The second bias as a row. -/
theorem h3_bias (Wv : Valuation τ sig (Elt F)) (x5 : (⟨S40, .f32⟩ : BufTy).Contents (Elt F))
    (h : Wv (Proc.devRef .tc main_arg5) = x5) :
    StableHlo.after hostOps3 Wv (Proc.devRef .tc main_v61) = shapeCast S1x40 x5 shapeCasts_S40_S1x40 := by
  after_results_simp
  rw [h]
  (try simp only [TRef.ofBuf, TRef.toBuf, cast_eq]) <;> rfl

/-! ## The buffer contents at the segment boundaries of the run -/

theorem W1_src (c : Dev nD) : W1 m ρ c (Proc.devRef .tc main_v5) = val_main_v5 (F := F) (a1 m c) :=
  h0_src (W0 m ρ c) _ rfl
theorem W1_dst (c : Dev nD) : W1 m ρ c (Proc.devRef .tc main_v6) = val_main_v6 (F := F) (a1 m c) :=
  h0_dst (W0 m ρ c) _ rfl
theorem W1_pos (c : Dev nD) : W1 m ρ c (Proc.devRef .tc main_v12) = val_main_v12 (F := F) (a1 m c) :=
  h0_pos (W0 m ρ c) _ rfl
theorem W1_rsqrt (c : Dev nD) : W1 m ρ c (Proc.devRef .tc main_v15) = val_main_v15 (F := F) (a1 m c) :=
  h0_rsqrt (W0 m ρ c) _ rfl
theorem W1_zero (c : Dev nD) : W1 m ρ c (Proc.devRef .tc main_cst_3) = val_main_cst_3 (F := F) :=
  h0_zero (W0 m ρ c)
theorem W1_arg0 (c : Dev nD) : W1 m ρ c (Proc.devRef .tc main_arg0) = a0 m c :=
  h0_keep_arg0 (W0 m ρ c)
theorem W1_arg2 (c : Dev nD) : W1 m ρ c (Proc.devRef .tc main_arg2) = a2 m c :=
  h0_keep_arg2 (W0 m ρ c)
theorem W1_arg3 (c : Dev nD) : W1 m ρ c (Proc.devRef .tc main_arg3) = a3 m c :=
  h0_keep_arg3 (W0 m ρ c)
theorem W1_arg4 (c : Dev nD) : W1 m ρ c (Proc.devRef .tc main_arg4) = a4 m c :=
  h0_keep_arg4 (W0 m ρ c)
theorem W1_arg5 (c : Dev nD) : W1 m ρ c (Proc.devRef .tc main_arg5) = a5 m c :=
  h0_keep_arg5 (W0 m ρ c)
theorem W2_factor (c : Dev nD) : W2 m ρ c (Proc.devRef .tc main_v16) = val_main_v16 (F := F) (a1 m c) :=
  h01_factor (W1 m ρ c) _ (W1_pos m ρ c) (W1_rsqrt m ρ c) (W1_zero m ρ c)
theorem W2_src (c : Dev nD) : W2 m ρ c (Proc.devRef .tc main_v5) = val_main_v5 (F := F) (a1 m c) :=
  (h01_keep_v5 (W1 m ρ c)).trans (W1_src m ρ c)
theorem W3_src (c : Dev nD) : W3 m ρ c (Proc.devRef .tc main_v5) = val_main_v5 (F := F) (a1 m c) :=
  (h02_keep_v5 (W2 m ρ c)).trans (W2_src m ρ c)
theorem W2_dst (c : Dev nD) : W2 m ρ c (Proc.devRef .tc main_v6) = val_main_v6 (F := F) (a1 m c) :=
  (h01_keep_v6 (W1 m ρ c)).trans (W1_dst m ρ c)
theorem W3_dst (c : Dev nD) : W3 m ρ c (Proc.devRef .tc main_v6) = val_main_v6 (F := F) (a1 m c) :=
  (h02_keep_v6 (W2 m ρ c)).trans (W2_dst m ρ c)
theorem W2_arg0 (c : Dev nD) : W2 m ρ c (Proc.devRef .tc main_arg0) = a0 m c :=
  (h01_keep_arg0 (W1 m ρ c)).trans (W1_arg0 m ρ c)
theorem W3_arg0 (c : Dev nD) : W3 m ρ c (Proc.devRef .tc main_arg0) = a0 m c :=
  (h02_keep_arg0 (W2 m ρ c)).trans (W2_arg0 m ρ c)
theorem W2_arg2 (c : Dev nD) : W2 m ρ c (Proc.devRef .tc main_arg2) = a2 m c :=
  (h01_keep_arg2 (W1 m ρ c)).trans (W1_arg2 m ρ c)
theorem W3_arg2 (c : Dev nD) : W3 m ρ c (Proc.devRef .tc main_arg2) = a2 m c :=
  (h02_keep_arg2 (W2 m ρ c)).trans (W2_arg2 m ρ c)
theorem W2_arg3 (c : Dev nD) : W2 m ρ c (Proc.devRef .tc main_arg3) = a3 m c :=
  (h01_keep_arg3 (W1 m ρ c)).trans (W1_arg3 m ρ c)
theorem W3_arg3 (c : Dev nD) : W3 m ρ c (Proc.devRef .tc main_arg3) = a3 m c :=
  (h02_keep_arg3 (W2 m ρ c)).trans (W2_arg3 m ρ c)
theorem W2_arg4 (c : Dev nD) : W2 m ρ c (Proc.devRef .tc main_arg4) = a4 m c :=
  (h01_keep_arg4 (W1 m ρ c)).trans (W1_arg4 m ρ c)
theorem W3_arg4 (c : Dev nD) : W3 m ρ c (Proc.devRef .tc main_arg4) = a4 m c :=
  (h02_keep_arg4 (W2 m ρ c)).trans (W2_arg4 m ρ c)
theorem W2_arg5 (c : Dev nD) : W2 m ρ c (Proc.devRef .tc main_arg5) = a5 m c :=
  (h01_keep_arg5 (W1 m ρ c)).trans (W1_arg5 m ρ c)
theorem W3_arg5 (c : Dev nD) : W3 m ρ c (Proc.devRef .tc main_arg5) = a5 m c :=
  (h02_keep_arg5 (W2 m ρ c)).trans (W2_arg5 m ρ c)
theorem W3_norm (c : Dev nD) : W3 m ρ c (Proc.devRef .tc main_v32) = val_main_v40 (F := F) (a1 m c) :=
  h02_norm (W2 m ρ c) _ (W2_factor m ρ c) (W2_src m ρ c) (W2_dst m ρ c)
theorem W4_src (c : Dev nD) : W4 m ρ c (Proc.devRef .tc main_v5) = val_main_v5 (F := F) (a1 m c) :=
  (W4_of_ne m ρ c main_v5 (by decide)).trans (W3_src m ρ c)
theorem W5_src (c : Dev nD) : W5 m ρ c (Proc.devRef .tc main_v5) = val_main_v5 (F := F) (a1 m c) :=
  (h1_keep_v5 (W4 m ρ c)).trans (W4_src m ρ c)
theorem W6_src (c : Dev nD) : W6 m ρ c (Proc.devRef .tc main_v5) = val_main_v5 (F := F) (a1 m c) :=
  (W6_of_ne m ρ c main_v5 (by decide)).trans (W5_src m ρ c)
theorem W7_src (c : Dev nD) : W7 m ρ c (Proc.devRef .tc main_v5) = val_main_v5 (F := F) (a1 m c) :=
  (W7_of_ne m ρ c main_v5 (by decide)).trans (W6_src m ρ c)
theorem W4_dst (c : Dev nD) : W4 m ρ c (Proc.devRef .tc main_v6) = val_main_v6 (F := F) (a1 m c) :=
  (W4_of_ne m ρ c main_v6 (by decide)).trans (W3_dst m ρ c)
theorem W5_dst (c : Dev nD) : W5 m ρ c (Proc.devRef .tc main_v6) = val_main_v6 (F := F) (a1 m c) :=
  (h1_keep_v6 (W4 m ρ c)).trans (W4_dst m ρ c)
theorem W6_dst (c : Dev nD) : W6 m ρ c (Proc.devRef .tc main_v6) = val_main_v6 (F := F) (a1 m c) :=
  (W6_of_ne m ρ c main_v6 (by decide)).trans (W5_dst m ρ c)
theorem W7_dst (c : Dev nD) : W7 m ρ c (Proc.devRef .tc main_v6) = val_main_v6 (F := F) (a1 m c) :=
  (W7_of_ne m ρ c main_v6 (by decide)).trans (W6_dst m ρ c)
theorem W4_norm (c : Dev nD) : W4 m ρ c (Proc.devRef .tc main_v32) = val_main_v40 (F := F) (a1 m c) :=
  (W4_of_ne m ρ c main_v32 (by decide)).trans (W3_norm m ρ c)
theorem W5_norm (c : Dev nD) : W5 m ρ c (Proc.devRef .tc main_v32) = val_main_v40 (F := F) (a1 m c) :=
  (h1_keep_v32 (W4 m ρ c)).trans (W4_norm m ρ c)
theorem W6_norm (c : Dev nD) : W6 m ρ c (Proc.devRef .tc main_v32) = val_main_v40 (F := F) (a1 m c) :=
  (W6_of_ne m ρ c main_v32 (by decide)).trans (W5_norm m ρ c)
theorem W7_norm (c : Dev nD) : W7 m ρ c (Proc.devRef .tc main_v32) = val_main_v40 (F := F) (a1 m c) :=
  (W7_of_ne m ρ c main_v32 (by decide)).trans (W6_norm m ρ c)
theorem W4_arg3 (c : Dev nD) : W4 m ρ c (Proc.devRef .tc main_arg3) = a3 m c :=
  (W4_of_ne m ρ c main_arg3 (by decide)).trans (W3_arg3 m ρ c)
theorem W4_arg4 (c : Dev nD) : W4 m ρ c (Proc.devRef .tc main_arg4) = a4 m c :=
  (W4_of_ne m ρ c main_arg4 (by decide)).trans (W3_arg4 m ρ c)
theorem W5_arg4 (c : Dev nD) : W5 m ρ c (Proc.devRef .tc main_arg4) = a4 m c :=
  (h1_keep_arg4 (W4 m ρ c)).trans (W4_arg4 m ρ c)
theorem W6_arg4 (c : Dev nD) : W6 m ρ c (Proc.devRef .tc main_arg4) = a4 m c :=
  (W6_of_ne m ρ c main_arg4 (by decide)).trans (W5_arg4 m ρ c)
theorem W4_arg5 (c : Dev nD) : W4 m ρ c (Proc.devRef .tc main_arg5) = a5 m c :=
  (W4_of_ne m ρ c main_arg5 (by decide)).trans (W3_arg5 m ρ c)
theorem W5_arg5 (c : Dev nD) : W5 m ρ c (Proc.devRef .tc main_arg5) = a5 m c :=
  (h1_keep_arg5 (W4 m ρ c)).trans (W4_arg5 m ρ c)
theorem W6_arg5 (c : Dev nD) : W6 m ρ c (Proc.devRef .tc main_arg5) = a5 m c :=
  (W6_of_ne m ρ c main_arg5 (by decide)).trans (W5_arg5 m ρ c)
theorem W7_arg5 (c : Dev nD) : W7 m ρ c (Proc.devRef .tc main_arg5) = a5 m c :=
  (W7_of_ne m ρ c main_arg5 (by decide)).trans (W6_arg5 m ρ c)

/-! ## The dense stages and the aggregations between them, at the ideal values -/

section AtIdeal

variable (mI : (ℓ : Loc nD τ sig) → Buf (Elt Ideal) ℓ)

/-- Call 0 leaves the first matrix product. -/
theorem W4_lin1 (c : Dev nD) :
    W4 mI ρ c (Proc.devRef .tc main_v33) = val_main_v32 (F := Ideal) (a0 mI c) (a2 mI c) := by
  refine (W4_arr mI ρ c 2).trans ((Region0.value (V3 mI ρ) c).trans ?_)
  show Cert.Spec.mm1 (W3 mI ρ c (Proc.devRef .tc main_arg0)) (W3 mI ρ c (Proc.devRef .tc main_arg2)) = _
  rw [W3_arg0, W3_arg2]
  exact (Cert.ReferenceIdeal.RefSpec.mm1_eq _ _).symm

/-- The first aggregate, entering call 1. -/
theorem W5_agg1 (c : Dev nD) :
    W5 mI ρ c (Proc.devRef .tc main_v45) = val_main_v45 (F := Ideal) (a0 mI c) (a1 mI c) (a2 mI c) :=
  h1_agg (W4 mI ρ c) _ _ _ (W4_lin1 ρ mI c) (W4_src mI ρ c) (W4_dst mI ρ c) (W4_norm mI ρ c)

/-- The first bias row, entering call 1. -/
theorem W5_bias1 (c : Dev nD) :
    W5 mI ρ c (Proc.devRef .tc main_v46) = shapeCast S1x8 (a3 mI c) shapeCasts_S8_S1x8 :=
  h1_bias (W4 mI ρ c) _ (W4_arg3 mI ρ c)

/-- The bias row read at a column is the bias vector there. -/
theorem bias1_row (x : S8.Idx → Elt Ideal .f32) (q : Fin 8) :
    shapeCast S1x8 x shapeCasts_S8_S1x8 (ix2 0 q) = x (ix1 q) :=
  shapeCast_apply x shapeCasts_S8_S1x8 (ix2 0 q) (ix1 q)
    (by rewrite [Shape.rowMajor_val_one, Shape.rowMajor_val_two]; show q.val = 0 * 8 + q.val; omega)

/-- Call 1 leaves the first layer's activation. -/
theorem W6_act (c : Dev nD) :
    W6 mI ρ c (Proc.devRef .tc main_v47) = val_main_v49 (F := Ideal) (a0 mI c) (a1 mI c) (a2 mI c) (a3 mI c) := by
  refine (W6_arr mI ρ c 2).trans ((Region1.value (V5 mI ρ) c).trans ?_)
  show Cert.Spec.biasRelu (W5 mI ρ c (Proc.devRef .tc main_v45)) (W5 mI ρ c (Proc.devRef .tc main_v46)) = _
  rw [W5_agg1, W5_bias1]
  exact (Cert.ReferenceIdeal.RefSpec.biasRelu_eq _ _ _ _ _ (fun q => bias1_row (a3 mI c) q)).symm

/-- Call 2 leaves the second matrix product. -/
theorem W7_lin2 (c : Dev nD) :
    W7 mI ρ c (Proc.devRef .tc main_v48) = val_main_v78 (F := Ideal) (a0 mI c) (a1 mI c) (a2 mI c) (a3 mI c) (a4 mI c) := by
  refine (W7_arr mI ρ c 2).trans ((Region2.value (V6 mI ρ) c).trans ?_)
  show Cert.Spec.mm2 (W6 mI ρ c (Proc.devRef .tc main_v47)) (W6 mI ρ c (Proc.devRef .tc main_arg4)) = _
  rw [W6_act, W6_arg4]
  exact (Cert.ReferenceIdeal.RefSpec.mm2_eq _ _ _ _ _).symm

/-- The second aggregate, entering call 3. -/
theorem W8_agg2 (c : Dev nD) :
    W8 mI ρ c (Proc.devRef .tc main_v60) = val_main_v91 (F := Ideal) (a0 mI c) (a1 mI c) (a2 mI c) (a3 mI c) (a4 mI c) :=
  h3_agg (W7 mI ρ c) _ _ _ _ _ (W7_lin2 ρ mI c) (W7_src mI ρ c) (W7_dst mI ρ c) (W7_norm mI ρ c)

/-- The second bias row, entering call 3. -/
theorem W8_bias2 (c : Dev nD) :
    W8 mI ρ c (Proc.devRef .tc main_v61) = shapeCast S1x40 (a5 mI c) shapeCasts_S40_S1x40 :=
  h3_bias (W7 mI ρ c) _ (W7_arg5 mI ρ c)

/-- The bias row read at a column is the bias vector there. -/
theorem bias2_row (x : S40.Idx → Elt Ideal .f32) (q : Fin 40) :
    shapeCast S1x40 x shapeCasts_S40_S1x40 (ix2 0 q) = x (ix1 q) :=
  shapeCast_apply x shapeCasts_S40_S1x40 (ix2 0 q) (ix1 q)
    (by rewrite [Shape.rowMajor_val_one, Shape.rowMajor_val_two]; show q.val = 0 * 40 + q.val; omega)

/-- The second result array: the logits. -/
theorem res_logits (c : Dev nD) :
    W9 mI ρ c (Proc.devRef .tc main_v62_1) = val_main_v94 (F := Ideal) (a0 mI c) (a1 mI c) (a2 mI c) (a3 mI c) (a4 mI c) (a5 mI c) := by
  refine (W9_arr mI ρ c 3).trans ((Region3.value_logits (V8 mI ρ) c).trans ?_)
  show Cert.Spec.logits (W8 mI ρ c (Proc.devRef .tc main_v60)) (W8 mI ρ c (Proc.devRef .tc main_v61)) = _
  rw [W8_agg2, W8_bias2]
  exact (Cert.ReferenceIdeal.RefSpec.logits_eq _ _ _ _ _ _ _ (fun q => bias2_row (a5 mI c) q)).symm

/-- The first result array: the row-wise log-softmax of the logits. -/
theorem res_logp (c : Dev nD) :
    W9 mI ρ c (Proc.devRef .tc main_v62_0) = val_main_v95 (F := Ideal) (a0 mI c) (a1 mI c) (a2 mI c) (a3 mI c) (a4 mI c) (a5 mI c) := by
  refine (W9_arr mI ρ c 2).trans ((Region3.value_logp (V8 mI ρ) c).trans ?_)
  show Cert.Spec.logSoftmax (Cert.Spec.logits (W8 mI ρ c (Proc.devRef .tc main_v60)) (W8 mI ρ c (Proc.devRef .tc main_v61))) = _
  rw [W8_agg2, W8_bias2, ← Cert.ReferenceIdeal.RefSpec.logits_eq _ _ _ _ _ _ _ (fun q => bias2_row (a5 mI c) q)]
  exact (Cert.ReferenceIdeal.RefSpec.logSoftmax_eq _ _ _ _ _ _).symm

end AtIdeal

end Cert.KernelIdeal.Chain

end
-- ==== Proof.lean ====
/-
  A two-layer graph convolution with a log-softmax head, as a Pallas program against its jnp reference, over the
  extended reals. Both programs compute, for node features x, edges with self loops appended and symmetric degree
  normalisation n: h = relu(A (x W1) + b1), logits = A (h W2) + b2 and the row-wise log-softmax of the logits, where
  A gathers rows by source, scales them by n and adds them into their targets. The kernel runs the two matrix
  products, the bias-and-clamp and the log-softmax as four Pallas calls tiled over rows, and computes the
  normalisation once; the reference computes it per layer, by the same operations. At the ideal values a change of
  float format is the identity and a product into a zero accumulator is the plain sum, so each call's output array is
  the corresponding dense stage of the reference (one module per call), the host operations between them are the
  reference's own, and the two results agree index by index. No law beyond commutativity and associativity of the
  sums is used, so the finiteness of the inputs is never opened.
-/
import proofs.«109300_j36249523978477_1_alg».proof.Defs
import proofs.«109300_j36249523978477_1_alg».proof.Proof.Gen.Kernel
import proofs.«109300_j36249523978477_1_alg».proof.Proof.Gen.Kernel.Skeleton
import proofs.«109300_j36249523978477_1_alg».proof.Proof.Gen.Kernel.Launch
import proofs.«109300_j36249523978477_1_alg».proof.Proof.Gen.Kernel.Points
import proofs.«109300_j36249523978477_1_alg».proof.Proof.Gen.Kernel.Frame
import proofs.«109300_j36249523978477_1_alg».proof.Proof.Gen.KernelIdeal
import proofs.«109300_j36249523978477_1_alg».proof.Proof.Gen.KernelIdeal.Skeleton
import proofs.«109300_j36249523978477_1_alg».proof.Proof.Gen.KernelIdeal.Launch
import proofs.«109300_j36249523978477_1_alg».proof.Proof.Gen.KernelIdeal.Points
import proofs.«109300_j36249523978477_1_alg».proof.Proof.Gen.KernelIdeal.Frame
import proofs.«109300_j36249523978477_1_alg».proof.Proof.Gen.ReferenceIdeal
import proofs.«109300_j36249523978477_1_alg».proof.Proof.Gen.Pre_finite_inputs
import proofs.«109300_j36249523978477_1_alg».proof.Proof.RefRead
import proofs.«109300_j36249523978477_1_alg».proof.Proof.RefRunHand
import proofs.«109300_j36249523978477_1_alg».proof.Proof.KernelRun
import proofs.«109300_j36249523978477_1_alg».proof.Proof.Chain
import Idealize.ShloMosaic.Adequacy
import Idealize.ShloMosaic.Init

noncomputable section

namespace Cert.Proof

open Idealize.ShloMosaic Idealize.SL.Sem

/-- The word-level kernel runs and keeps its arguments: the generated frame over its four calls. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.HandRun.run (F := Ideal) m ρ)

/-- From memories agreeing on the arguments both programs end with the log-probabilities and the logits of the
    reference's own stages applied to those arguments. -/
theorem algebraic : Cert.algebraic_KernelIdeal_ReferenceIdeal := by
  intro m ρ m' ρ' _ hagree
  refine ⟨fun c => Cert.ReferenceIdeal.Read.val_main_v95 (F := Ideal) (Cert.KernelIdeal.Chain.a0 m c) (Cert.KernelIdeal.Chain.a1 m c)
      (Cert.KernelIdeal.Chain.a2 m c) (Cert.KernelIdeal.Chain.a3 m c) (Cert.KernelIdeal.Chain.a4 m c) (Cert.KernelIdeal.Chain.a5 m c),
    fun c => Cert.ReferenceIdeal.Read.val_main_v94 (F := Ideal) (Cert.KernelIdeal.Chain.a0 m c) (Cert.KernelIdeal.Chain.a1 m c)
      (Cert.KernelIdeal.Chain.a2 m c) (Cert.KernelIdeal.Chain.a3 m c) (Cert.KernelIdeal.Chain.a4 m c) (Cert.KernelIdeal.Chain.a5 m c), ?_, ?_⟩
  · exact (θ_run Cert.KernelIdeal.defs _ _).mono
      (fun r h c => ⟨(h c).1.trans (Cert.KernelIdeal.Chain.res_logp ρ m c), (h c).2.1.trans (Cert.KernelIdeal.Chain.res_logits ρ m c), (h c).2.2⟩)
      (Cert.KernelIdeal.Run.run_named m ρ)
  · refine (θ_run Cert.ReferenceIdeal.defs _ _).mono (fun r h c => ⟨(h c).1.trans ?_, (h c).2.1.trans ?_, (h c).2.2⟩)
      (Cert.ReferenceIdeal.HandRun.run (F := Ideal) m' ρ')
    · rw [(hagree c).1, (hagree c).2.1, (hagree c).2.2.1, (hagree c).2.2.2.1,
        (hagree c).2.2.2.2.1, (hagree c).2.2.2.2.2]
    · rw [(hagree c).1, (hagree c).2.1, (hagree c).2.2.1, (hagree c).2.2.2.1,
        (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
